-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x128x128 : Shape := ⟨5, ![8, 32, 32, 128, 128]⟩
abbrev S_ : Shape := ⟨0, ![]⟩

class Facts : Prop where
  bcast_S_S8x32x32x128x128 : S_.BroadcastsInDim S8x32x32x128x128 (![] : Fin 0 → Fin S8x32x32x128x128.rank)
  reducesTo_S8x32x32x128x128_S_d0_1_2_3_4 : S8x32x32x128x128.ReducesTo [0, 1, 2, 3, 4] S_
  h_S_ : 0 < S_.numel

variable [Facts]

def fn {F : FTy → Type} [FloatOps F] (main_arg0 : FVec F S8x32x32x128x128 .f32) : IVec S_ 1 :=
  let main_v0 : FVec F S8x32x32x128x128 .f32 := Host.absf main_arg0
  let main_cst : FVec F S_ .f32 := constant S_ .f32 0x7F800000#32
  let main_v1 : FVec F S8x32x32x128x128 .f32 := broadcastInDim S8x32x32x128x128 ![] bcast_S_S8x32x32x128x128 main_cst
  let main_v2 : IVec S8x32x32x128x128 1 := cmpf .olt main_v0 main_v1
  let main_c : IVec S_ 1 := constantI S_ 1 1#1
  let main_v3 : IVec S_ 1 := (fun x v => Host.reduce IntOp.andi x v reducesTo_S8x32x32x128x128_S_d0_1_2_3_4 h_S_) main_v2 main_c
  main_v3
-- ==== Kernel.lean ====
abbrev S8x32x32x128x128 : Shape := ⟨5, ![8, 32, 32, 128, 128]⟩
abbrev S8x32x1 : Shape := ⟨3, ![8, 32, 1]⟩
abbrev S1x8x32x128x128 : Shape := ⟨5, ![1, 8, 32, 128, 128]⟩
abbrev S1x32x1 : Shape := ⟨3, ![1, 32, 1]⟩
abbrev S32x1 : Shape := ⟨2, ![32, 1]⟩
abbrev S8x32x128x128 : Shape := ⟨4, ![8, 32, 128, 128]⟩
abbrev S8x32x128 : Shape := ⟨3, ![8, 32, 128]⟩
abbrev S8x32 : Shape := ⟨2, ![8, 32]⟩
abbrev S32 : Shape := ⟨1, ![32]⟩
abbrev S1x4x32x128x128 : Shape := ⟨5, ![1, 4, 32, 128, 128]⟩
abbrev S1x32x1x1 : Shape := ⟨4, ![1, 32, 1, 1]⟩
abbrev S4x32x128x128 : Shape := ⟨4, ![4, 32, 128, 128]⟩

abbrev nBuf : Space → Nat
  | .hbm => 3
  | .vmem => 11
  | .smem => 0
  | _ => 0

abbrev bufTy : (tb : Table) → Fin (tcTables nBuf tb) → BufTy
  | .hbm, ⟨0, _⟩ => ⟨S8x32x32x128x128, .f32⟩
  | .hbm, ⟨1, _⟩ => ⟨S8x32x1, .f32⟩
  | .hbm, ⟨2, _⟩ => ⟨S8x32x32x128x128, .f32⟩
  | .local _ .vmem, ⟨0, _⟩ => ⟨S1x8x32x128x128, .f32⟩
  | .local _ .vmem, ⟨1, _⟩ => ⟨S1x8x32x128x128, .f32⟩
  | .local _ .vmem, ⟨2, _⟩ => ⟨S1x32x1, .f32⟩
  | .local _ .vmem, ⟨3, _⟩ => ⟨S1x32x1, .f32⟩
  | .local _ .vmem, ⟨4, _⟩ => ⟨S32x1, .f32⟩
  | .local _ .vmem, ⟨5, _⟩ => ⟨S1x4x32x128x128, .f32⟩
  | .local _ .vmem, ⟨6, _⟩ => ⟨S1x4x32x128x128, .f32⟩
  | .local _ .vmem, ⟨7, _⟩ => ⟨S1x32x1, .f32⟩
  | .local _ .vmem, ⟨8, _⟩ => ⟨S1x32x1, .f32⟩
  | .local _ .vmem, ⟨9, _⟩ => ⟨S1x4x32x128x128, .f32⟩
  | .local _ .vmem, ⟨10, _⟩ => ⟨S1x4x32x128x128, .f32⟩
  | _, _ => ⟨S8x32x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_11 : BitVec 32 := 0#32
  let v16 : BitVec 1 := Scalar.cmpi .ne v15 c0_i32_11
  v16

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 2 → Memref sig .tc .vmem S1x4x32x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4x32x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x8x32x128x128_S1x8x32x128x128_0_0_0_0_0 : ∀ a, (![0, 0, 0, 0, 0] : Fin 5 → Nat) a + S1x8x32x128x128.size a ≤ S1x8x32x128x128.size a
  h_S1x8x32x128x128 : 0 < S1x8x32x128x128.numel
  shapeCasts_S1x8x32x128x128_S8x32x128x128 : S1x8x32x128x128.ShapeCasts S8x32x128x128
  reduces_S8x32x128x128_S8x32x128 : S8x32x128x128.Reduces [3] S8x32x128
  reduces_S8x32x128_S8x32 : S8x32x128.Reduces [2] S8x32
  reduces_S8x32_S32 : S8x32.Reduces [0] S32
  shapeCasts_S32_S32x1 : S32.ShapeCasts S32x1
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  shapeCasts_S32x1_S1x32x1x1 : S32x1.ShapeCasts S1x32x1x1
  inb_S1x4x32x128x128_S1x4x32x128x128_0_0_0_0_0 : ∀ a, (![0, 0, 0, 0, 0] : Fin 5 → Nat) a + S1x4x32x128x128.size a ≤ S1x4x32x128x128.size a
  h_S1x4x32x128x128 : 0 < S1x4x32x128x128.numel
  shapeCasts_S1x4x32x128x128_S4x32x128x128 : S1x4x32x128x128.ShapeCasts S4x32x128x128
  broadcasts_S1x32x1x1_S4x32x128x128 : S1x32x1x1.Broadcasts S4x32x128x128
  shapeCasts_S4x32x128x128_S1x4x32x128x128 : S4x32x128x128.ShapeCasts S1x4x32x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x32x128x128.size a ≤ S8x32x32x128x128.size a
  hwx0_0 : ∀ i : grid0.Coords, EltTy.bits .f32 = 32 ∨ (Rect.block (s := S8x32x32x128x128) S1x8x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x1.size a ≤ S8x32x1.size a
  hwx0_1 : ∀ i : grid0.Coords, EltTy.bits .f32 = 32 ∨ (Rect.block (s := S8x32x1) S1x32x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x32x128x128.size a ≤ S8x32x32x128x128.size a
  hwx1_0 : ∀ i : grid1.Coords, EltTy.bits .f32 = 32 ∨ (Rect.block (s := S8x32x32x128x128) S1x4x32x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x1.size a ≤ S8x32x1.size a
  hwx1_1 : ∀ i : grid1.Coords, EltTy.bits .f32 = 32 ∨ (Rect.block (s := S8x32x1) S1x32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x32x128x128.size a ≤ S8x32x32x128x128.size a
  hwx1_2 : ∀ i : grid1.Coords, EltTy.bits .f32 = 32 ∨ (Rect.block (s := S8x32x32x128x128) S1x4x32x128x128.size (cc1_transform_2 i) (hinb1_2 i)).WholeWords (EltTy.packing .f32)

variable [Facts₀]

abbrev win0_0 : Pipeline.Window sig grid0 :=
  Pipeline.Window.ofSpec (Memref.whole main_arg0) S1x8x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x4x32x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4x32x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x32x32x128x128 : Shape := ⟨5, ![8, 32, 32, 128, 128]⟩
abbrev S_ : Shape := ⟨0, ![]⟩
abbrev S8x32 : Shape := ⟨2, ![8, 32]⟩
abbrev S8x1x32x1x1 : Shape := ⟨5, ![8, 1, 32, 1, 1]⟩

abbrev nBuf : Space → Nat
  | .hbm => 9
  | .vmem => 0
  | .smem => 0
  | _ => 0

abbrev bufTy : (tb : Table) → Fin (tcTables nBuf tb) → BufTy
  | .hbm, ⟨0, _⟩ => ⟨S8x32x32x128x128, .f32⟩
  | .hbm, ⟨1, _⟩ => ⟨S_, .f32⟩
  | .hbm, ⟨2, _⟩ => ⟨S8x32, .f32⟩
  | .hbm, ⟨3, _⟩ => ⟨S_, .f32⟩
  | .hbm, ⟨4, _⟩ => ⟨S8x32, .f32⟩
  | .hbm, ⟨5, _⟩ => ⟨S8x32, .f32⟩
  | .hbm, ⟨6, _⟩ => ⟨S8x1x32x1x1, .f32⟩
  | .hbm, ⟨7, _⟩ => ⟨S8x32x32x128x128, .f32⟩
  | .hbm, ⟨8, _⟩ => ⟨S8x32x32x128x128, .f32⟩
  | _, _ => ⟨S8x32x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  reducesTo_S8x32x32x128x128_S8x32_d1_3_4 : S8x32x32x128x128.ReducesTo [1, 3, 4] S8x32
  h_S_ : 0 < S_.numel
  bcast_S_S8x32 : S_.BroadcastsInDim S8x32 (![] : Fin 0 → Fin S8x32.rank)
  bcast_S8x32_S8x1x32x1x1_0_2 : S8x32.BroadcastsInDim S8x1x32x1x1 (![0, 2] : Fin 2 → Fin S8x1x32x1x1.rank)
  bcast_S8x1x32x1x1_S8x32x32x128x128_0_1_2_3_4 : S8x1x32x1x1.BroadcastsInDim S8x32x32x128x128 (![0, 1, 2, 3, 4] : Fin 5 → Fin S8x32x32x128x128.rank)

variable [Facts₀]

class Facts : Prop extends Facts₀ where

variable [Facts]
-- ==== Proof.Kernel.Body0.lean ====
import proofs.«161274_j15135464751187_1_alg».proof.Proof.Gen.Kernel.Launch
import proofs.«161274_j15135464751187_1_alg».proof.Proof.Gen.Kernel.Skeleton
import proofs.«161274_j15135464751187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The reduction body on whole staging buffers

The body of the first pallas_call adds, into a running [32, 1] vector kept in scratch, the sums over
channel, row and column of the eight-channel tile it is handed. At the first tile of a batch the
running vector is zeroed first; at the last tile it is scaled and stored into the output block. -/

/-- The point is the first channel tile of its batch. -/
abbrev isFirst (i : grid0.Coords) : Prop :=
  (Scalar.cmpi .ne (Scalar.extui (Scalar.cmpi .eq (BitVec.ofNat 32 (i 1).val) 0#32)) 0#32) = 1#1
/-- The point is the last channel tile of its batch. -/
abbrev isLast (i : grid0.Coords) : Prop := k0_cond2 i = 1#1

/-- The zero offsets of a rank-2 rectangle, however spelt. -/
theorem z2 : (![0, 0] : Fin 2 → Nat) = fun _ => 0 := by funext a; fin_cases a <;> rfl
theorem z3 : (![0, 0, 0] : Fin 3 → Nat) = fun _ => 0 := by funext a; fin_cases a <;> rfl
theorem z5 : (![0, 0, 0, 0, 0] : Fin 5 → Nat) = fun _ => 0 := by funext a; fin_cases a <;> rfl

set_option maxHeartbeats 1000000 in
/-- A middle tile: the running vector `xs` becomes `xs` plus the tile's sums; the output block is not touched. -/
theorem reduce_mid (c : Dev nD) (i : grid0.Coords)
    (arg2 : Memref sig .tc .vmem S1x8x32x128x128 .f32) (harg2 : arg2.IsWhole)
    (arg3 : Memref sig .tc .vmem S1x32x1 .f32) (harg3 : arg3.IsWhole)
    (arg4 : Memref sig .tc .vmem S32x1 .f32) (harg4 : arg4.IsWhole)
    (h0 : ¬isFirst i) (h1 : ¬isLast i)
    (x0 : Vec F S1x8x32x128x128 .f32) (d1 : Vec F S1x32x1 .f32) (xs : Vec F S32x1 .f32) (E : Set ℕ) (K : PUnit → sProp 𝕄) :
    iprop(owns (c : Thread nD τ) arg2 fullShare x0 ∗ owns (c : Thread nD τ) arg3 fullShare d1 ∗ owns (c : Thread nD τ) arg4 fullShare xs
        ∗ (iprop(owns (c : Thread nD τ) arg2 fullShare x0 ∗ owns (c : Thread nD τ) arg3 fullShare d1
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%fs, %hfs, HS⟩, Hk⟩
  obtain rfl := harg2.eq_unread hf0; obtain rfl := harg4.eq_unread hfs
  sl_exec (disch := first | exact h0 | exact h1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  refine (View.read_writes_eq_canon _ _ _ (fun y => ⟨_, List.mem_singleton_self _, ?_⟩)).trans ?_
  · exact View.mem_set_unit_zero z2 inb_S32x1_S32x1_0_0 y
  rw [View.canon_unit_zero z2]
  simp only [View.readAt_eq_ld, harg2.read_unread, harg4.read_unread, View.ld_unit_zero (S := S1x8x32x128x128) z5,
    View.ld_unit_zero (S := S32x1) z2]

set_option maxHeartbeats 1000000 in
/-- The first tile of a batch: whatever the scratch held, it ends at zero plus the tile's sums. -/
theorem reduce_first (c : Dev nD) (i : grid0.Coords)
    (arg2 : Memref sig .tc .vmem S1x8x32x128x128 .f32) (harg2 : arg2.IsWhole)
    (arg3 : Memref sig .tc .vmem S1x32x1 .f32) (harg3 : arg3.IsWhole)
    (arg4 : Memref sig .tc .vmem S32x1 .f32) (harg4 : arg4.IsWhole)
    (h0 : isFirst i) (h1 : ¬isLast i)
    (x0 : Vec F S1x8x32x128x128 .f32) (d1 : Vec F S1x32x1 .f32) (E : Set ℕ) (K : PUnit → sProp 𝕄) :
    iprop(owns (c : Thread nD τ) arg2 fullShare x0 ∗ owns (c : Thread nD τ) arg3 fullShare d1 ∗ (∃ d, owns (c : Thread nD τ) arg4 fullShare d)
        ∗ (iprop(owns (c : Thread nD τ) arg2 fullShare x0 ∗ owns (c : Thread nD τ) arg3 fullShare d1
            ∗ owns (c : Thread nD τ) arg4 fullShare (k0_pay2 x0 (k0_pay1 (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%ds, %fs, -, HS⟩, Hk⟩
  obtain rfl := harg2.eq_unread hf0
  sl_exec (disch := first | exact h0 | exact h1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_run_names
  refine (View.read_writes_eq_canon _ _ _ (fun y => ⟨_, List.Mem.head _, ?_⟩)).trans ?_
  · exact View.mem_set_unit_zero z2 inb_S32x1_S32x1_0_0 y
  rw [View.canon_cons_unit_zero z2, View.readCov_unit_zero (S := S32x1) arg4.view z2]
  simp only [View.readAt_eq_ld, harg2.read_unread, View.ld_unit_zero (S := S1x8x32x128x128) z5]

set_option maxHeartbeats 1000000 in
/-- The last tile of a batch: the running vector is updated as at a middle tile, and the output block ends at
    the updated vector scaled. -/
theorem reduce_last (c : Dev nD) (i : grid0.Coords)
    (arg2 : Memref sig .tc .vmem S1x8x32x128x128 .f32) (harg2 : arg2.IsWhole)
    (arg3 : Memref sig .tc .vmem S1x32x1 .f32) (harg3 : arg3.IsWhole)
    (arg4 : Memref sig .tc .vmem S32x1 .f32) (harg4 : arg4.IsWhole)
    (h0 : ¬isFirst i) (h1 : isLast i)
    (x0 : Vec F S1x8x32x128x128 .f32) (xs : Vec F S32x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (k0_pay2 x0 xs))
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact h0 | exact h1)
  sl_step
  iapply Hk
  isplitl [H0]
  · iexists _; isplitr; · ipureintro; exact hf0
    iexact H0
  isplitl [H1]
  · iexists _; isplitr
    swap; · iexact H1
    ipureintro
    sl_unfold_run_names
    refine (View.read_writes_eq_canon _ _ _ (fun y => ⟨_, List.mem_singleton_self _, ?_⟩)).trans ?_
    · exact View.mem_set_unit_zero z3 inb_S1x32x1_S1x32x1_0_0_0 y
    rw [View.canon_unit_zero z3, View.readCov_unit_zero (S := S32x1) arg4.view z2]
    simp only [View.readAt_eq_ld, harg2.read_unread, harg4.read_unread, View.ld_unit_zero (S := S1x8x32x128x128) z5,
      View.ld_unit_zero (S := S32x1) z2]
  iexists _; isplitr
  swap; · iexact HS
  ipureintro
  sl_unfold_run_names
  refine (View.read_writes_eq_canon _ _ _ (fun y => ⟨_, List.mem_singleton_self _, ?_⟩)).trans ?_
  · exact View.mem_set_unit_zero z2 inb_S32x1_S32x1_0_0 y
  rw [View.canon_unit_zero z2]
  simp only [View.readAt_eq_ld, harg2.read_unread, harg4.read_unread, View.ld_unit_zero (S := S1x8x32x128x128) z5,
    View.ld_unit_zero (S := S32x1) z2]

end Cert.Kernel.Hand

end
-- ==== Proof.Kernel.Data0.lean ====
import proofs.«161274_j15135464751187_1_alg».proof.Proof.Gen.Kernel.Launch
import proofs.«161274_j15135464751187_1_alg».proof.Proof.Gen.Kernel.Skeleton
import proofs.«161274_j15135464751187_1_alg».proof.Proof.Gen.Kernel.Points
import proofs.«161274_j15135464751187_1_alg».proof.Proof.Kernel.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: its proof data and its body obligation

The grid has 8 · 4 = 32 points, point `t` being channel tile `t % 4` of batch `t / 4`. The running vector kept in
scratch restarts at every point ≡ 0 (mod 4) and is written out, scaled, at every point ≡ 3 (mod 4); the output
window is idle elsewhere. Everything is stated at a parameter `V`, the buffers' contents when the region is entered. -/

section Region0

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data over `V` whose body leaves the block in place. -/
theorem before0_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## Which points are first and last tiles, and where the output window is idle -/

theorem first_iff : ∀ t : Fin cfg0.N, isFirst (grid0.coords t) ↔ t.val % 4 = 0 :=
  (by decide +kernel : ∀ t : Fin grid0.N, isFirst (grid0.coords t) ↔ t.val % 4 = 0)
theorem last_iff : ∀ t : Fin cfg0.N, isLast (grid0.coords t) ↔ t.val % 4 = 3 :=
  (by decide +kernel : ∀ t : Fin grid0.N, isLast (grid0.coords t) ↔ t.val % 4 = 3)
theorem in_live : ∀ t : Fin cfg0.N, cfg0.idle 0 (grid0.coords t) = false := by decide +kernel
theorem out_idle : ∀ t : Fin cfg0.N, ¬isLast (grid0.coords t) → cfg0.idle 1 (grid0.coords t) = true := by decide +kernel
theorem out_noflush : ∀ t : Fin cfg0.N, ¬isLast (grid0.coords t) → (cfg0.win 1).flush t = false := by decide +kernel
theorem out_live : ∀ t : Fin cfg0.N, isLast (grid0.coords t) → cfg0.idle 1 (grid0.coords t) = false := by decide +kernel

/-! ## The running vector -/

/-- The scratch after point `n`: at a first tile zero plus the tile's sums, else the previous point's vector plus them. -/
def acc0 (c : Dev nD) : (n : ℕ) → n < cfg0.N → Vec F S32x1 .f32
  | 0, hn => k0_pay2 (blk0 V c 0 ⟨0, hn⟩) (k0_pay1 (F := F))
  | n + 1, hn =>
    if (n + 1) % 4 = 0 then k0_pay2 (blk0 V c 0 ⟨n + 1, hn⟩) (k0_pay1 (F := F))
    else k0_pay2 (blk0 V c 0 ⟨n + 1, hn⟩) (acc0 c n (Nat.lt_of_succ_lt hn))

theorem acc0_first (c : Dev nD) (t : Fin cfg0.N) (h : t.val % 4 = 0) :
    acc0 V c t.val t.isLt = k0_pay2 (blk0 V c 0 t) (k0_pay1 (F := F)) := by
  obtain ⟨n, hn⟩ := t
  cases n with
  | zero => rfl
  | succ n => exact (if_pos h).trans rfl

theorem acc0_next (c : Dev nD) (t : Fin cfg0.N) (h : ¬t.val % 4 = 0) :
    acc0 V c t.val t.isLt = k0_pay2 (blk0 V c 0 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The region's scratch, a whole buffer. -/
abbrev scr0 : Memref sig .tc .vmem S32x1 .f32 := Memref.whole cc0_scratch0

/-- The core's scoped buffers this region never touches (the other region's staging buffers), at some contents each. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant of a kernel that carries nothing, with the scratch named: the scratch at anything, the untouched
    buffers, the generator register at some state. -/
theorem PhiA0_eq (c : Dev nD) :
    (Pipeline.ΦA spec0 c : sProp 𝕄)
      = iprop(((∃ d, owns (c : Thread nD τ) scr0 fullShare d) ∗ others0 c) ∗ (∃ r, prngReg c r)) := by
  unfold Pipeline.ΦA others0; rw [scopedRest0_eq]; simp only [scr0, owns_whole]; rfl

/-- Before point `n`: at the start the scratch holds anything; afterwards what the point before left. -/
def Phi0 (c : Dev nD) : (n : ℕ) → n ≤ cfg0.N → sProp 𝕄
  | 0, _ => Pipeline.ΦA spec0 c
  | n + 1, hn => iprop((owns (c : Thread nD τ) scr0 fullShare (acc0 V c n hn) ∗ others0 c) ∗ (∃ r, prngReg c r))

theorem Phi0_succ (c : Dev nD) (n : ℕ) (hn : n < cfg0.N) :
    Phi0 V c (n + 1) hn = iprop((owns (c : Thread nD τ) scr0 fullShare (acc0 V c n hn) ∗ others0 c) ∗ (∃ r, prngReg c r)) := rfl

theorem Phi0_pos (c : Dev nD) (n : ℕ) (h : n ≤ cfg0.N) (hz : n ≠ 0) :
    Phi0 V c n h = iprop((owns (c : Thread nD τ) scr0 fullShare (acc0 V c (n - 1) (by omega)) ∗ others0 c) ∗ (∃ r, prngReg c r)) := by
  cases n with
  | zero => exact absurd rfl hz
  | succ n => rfl

/-- At any point the invariant yields the scratch at SOME contents. -/
theorem Phi0_any (c : Dev nD) (n : ℕ) (h : n ≤ cfg0.N) :
    Phi0 V c n h ⊢ iprop(((∃ d, owns (c : Thread nD τ) scr0 fullShare d) ∗ others0 c) ∗ (∃ r, prngReg c r)) := by
  cases n with
  | zero => rw [show Phi0 V c 0 h = Pipeline.ΦA spec0 c from rfl, PhiA0_eq]
  | succ n =>
    rw [Phi0_succ]
    iintro ⟨⟨HS, HR⟩, Hg⟩
    isplitl [HS HR]
    · isplitl [HS]
      · iexists _; iexact HS
      iexact HR
    iexact Hg

/-! ## The proof data -/

/-- The arrays as the region finds them; after the body the input's buffer at its block and the output's at the
    running vector scaled (consulted only where the output is live); the invariant above; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = k0_pay3 (acc0 V c t.val t.isLt) := by dsimp only [dat0]

theorem before0_0 (c : Dev nD) (t : Fin cfg0.N) (d) : (dat0 V c).before 0 t d = blk0 V c 0 t :=
  before0_in_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- By the point's residue mod 4: a first tile (the scratch at anything), a middle tile, or a last tile (the scratch
    at what the point before left), each by the body's triple for that case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [in_live t], after0_0]
  have hN : t.val < 32 := lt_of_lt_of_eq t.isLt (show cfg0.N = 32 from N_0)
  by_cases hl : t.val % 4 = 3
  · have hf : ¬t.val % 4 = 0 := by omega
    have hz : t.val ≠ 0 := by omega
    rw [show (dat0 V c).leavesExact 1 t = owns (c : Thread nD τ) (st0_1 t) fullShare ((dat0 V c).after 1 t) from by
      unfold Dat.leavesExact; rw [out_live t ((last_iff t).mpr hl)], after0_1, acc0_next V c t hf]
    rw [Phi0_castSucc V c t, Phi0_pos V c _ _ hz]
    iintro ⟨⟨⟨HS, HR⟩, Hg⟩, Ho, ⟨%d0, H0⟩, ⟨%d1, H1⟩⟩
    iapply (reduce_last c (grid0.coords t) _ _ _ _ _ _ (fun h => hf ((first_iff t).mp h)) ((last_iff t).mpr hl) (blk0 V c 0 t) _ Set.univ _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1
  · have hnl : ¬isLast (grid0.coords t) := fun h => hl ((last_iff t).mp h)
    rw [Dat.leavesExact_idle (dat0 V c) 1 t (out_idle t hnl) (out_noflush t hnl)]
    by_cases hf : t.val % 4 = 0
    · rw [acc0_first V c t hf, Phi0_castSucc V c t]
      iintro ⟨HΦ, Ho, ⟨%d0, H0⟩, ⟨%d1, H1⟩⟩
      ihave HΦ' := (Phi0_any V c _ _) $$ HΦ
      icases HΦ' with ⟨⟨HS, HR⟩, Hg⟩
      iapply (reduce_first c (grid0.coords t) _ _ _ _ _ _ ((first_iff t).mpr hf) hnl (blk0 V c 0 t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1
    · have hz : t.val ≠ 0 := fun h => hf (by rw [h])
      rw [acc0_next V c t hf]
      rw [Phi0_castSucc V c t, Phi0_pos V c _ _ hz]
      iintro ⟨⟨⟨HS, HR⟩, Hg⟩, Ho, ⟨%d0, H0⟩, ⟨%d1, H1⟩⟩
      iapply (reduce_mid c (grid0.coords t) _ _ _ _ _ _ (fun h => hf ((first_iff t).mp h)) hnl (blk0 V c 0 t) _ _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What a kernel that carries nothing is handed is the invariant before the first point. -/
theorem hin0 (c : Dev nD) : Pipeline.ΦA spec0 c ⊢ (dat0 V c).Φ 0 := by
  rw [show (dat0 V c).Φ 0 = Pipeline.ΦA spec0 c from rfl]

/-- After the last point the scratch's contents are forgotten again. -/
theorem hout0 (c : Dev nD) : (dat0 V c).Φ (Fin.last cfg0.N) ⊢ Pipeline.ΦA spec0 c := by
  rw [show (dat0 V c).Φ (Fin.last cfg0.N) = Phi0 V c cfg0.N (Nat.le_refl _) from rfl, PhiA0_eq]
  exact Phi0_any V c _ _

end Region0

end Cert.Kernel.Hand

end
-- ==== Proof.Kernel.Body1.lean ====
import proofs.«161274_j15135464751187_1_alg».proof.Proof.Gen.Kernel.Launch
import proofs.«161274_j15135464751187_1_alg».proof.Proof.Gen.Kernel.Skeleton
import proofs.«161274_j15135464751187_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scaling body on whole staging buffers

The body of the second pallas_call multiplies the four-channel tile it is handed by the [1, 32, 1] vector of
means, broadcast along channel, row and column, and stores the product as the whole output block. -/

theorem y3 : (![0, 0, 0] : Fin 3 → Nat) = fun _ => 0 := by funext a; fin_cases a <;> rfl
theorem y5 : (![0, 0, 0, 0, 0] : Fin 5 → Nat) = fun _ => 0 := by funext a; fin_cases a <;> rfl

set_option maxHeartbeats 1000000 in
/-- The tile `x0` and the means `v` are left as they were; the output block ends at their product. -/
theorem scale_body (c : Dev nD) (i : grid1.Coords)
    (arg2 : Memref sig .tc .vmem S1x4x32x128x128 .f32) (harg2 : arg2.IsWhole)
    (arg3 : Memref sig .tc .vmem S1x32x1 .f32) (harg3 : arg3.IsWhole)
    (arg4 : Memref sig .tc .vmem S1x4x32x128x128 .f32) (harg4 : arg4.IsWhole)
    (x0 : Vec F S1x4x32x128x128 .f32) (v : Vec F S1x32x1 .f32) (E : Set ℕ) (K : PUnit → sProp 𝕄) :
    iprop(owns (c : Thread nD τ) arg2 fullShare x0 ∗ owns (c : Thread nD τ) arg3 fullShare v ∗ (∃ d, owns (c : Thread nD τ) arg4 fullShare d)
        ∗ (iprop(owns (c : Thread nD τ) arg2 fullShare x0 ∗ owns (c : Thread nD τ) arg3 fullShare v
            ∗ owns (c : Thread nD τ) arg4 fullShare (k1_pay1 v x0)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  refine (View.read_writes_eq_canon _ _ _ (fun y => ⟨_, List.mem_singleton_self _, ?_⟩)).trans ?_
  · exact View.mem_set_unit_zero y5 inb_S1x4x32x128x128_S1x4x32x128x128_0_0_0_0_0 y
  rw [View.canon_unit_zero y5]
  simp only [View.readAt_eq_ld, harg2.read_unread, harg3.read_unread, View.ld_unit_zero (S := S1x4x32x128x128) y5,
    View.ld_unit_zero (S := S1x32x1) y3]

end Cert.Kernel.Hand

end
-- ==== Proof.Kernel.Data1.lean ====
import proofs.«161274_j15135464751187_1_alg».proof.Proof.Gen.Kernel.Launch
import proofs.«161274_j15135464751187_1_alg».proof.Proof.Gen.Kernel.Skeleton
import proofs.«161274_j15135464751187_1_alg».proof.Proof.Gen.Kernel.Points
import proofs.«161274_j15135464751187_1_alg».proof.Proof.Kernel.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: its proof data and its body obligation

The grid has 8 · 8 = 64 points, point `t` being the four-channel tile `t % 8` of batch `t / 8`. The body carries
nothing from point to point: the output block is a function of the two input blocks at the point. Everything is
stated at a parameter `V`, the buffers' contents when the region is entered. -/

section Region1

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not (a block index that did not move
    is the same block), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The arrays as the region finds them; after the body each input's buffer at its block and the output's at the
    tile scaled by the means; the invariant of a kernel that carries nothing; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 1 t) (blk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay1 (blk1 V c 1 t) (blk1 V c 0 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The inputs' buffers hold their blocks, so the body's triple applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (scale_body c (grid1.coords t) _ _ _ _ _ _ (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Run.lean ====
import proofs.«161274_j15135464751187_1_alg».proof.Proof.Gen.Kernel.Launch
import proofs.«161274_j15135464751187_1_alg».proof.Proof.Gen.Kernel.Skeleton
import proofs.«161274_j15135464751187_1_alg».proof.Proof.Gen.Kernel.Points
import proofs.«161274_j15135464751187_1_alg».proof.Proof.Kernel.Data0
import proofs.«161274_j15135464751187_1_alg».proof.Proof.Kernel.Data1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: two kernel regions, one after the other

@main is the first pallas_call then the second, with no host operation between them. The buffers' contents at each
boundary are named: at launch, after the first region (its output array at what its write-backs leave), after the
second. Each region is a segment entered from "every unscoped buffer at the boundary's contents" and left at the
next boundary's; the launch theorem for a list of segments gives the run, whose final state holds every unscoped
buffer at the last boundary's contents. -/

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- The same read at the TensorCore's references: what the first region's proof data take. -/
abbrev VA : (c : Dev nD) → (b : Ref sig .tc) → Buf (Elt F) ((c : Thread nD τ).loc b) := fun c b => W0 m c b
/-- After the first region: its arrays at what the pipeline leaves, every other buffer as entered. -/
def W2 (c : Dev nD) : Valuation τ sig (Elt F) :=
  Pipeline.withArrays spec0 c (W0 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the second region's proof data take. -/
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- After the second region: its arrays at what the pipeline leaves, every other buffer as entered. -/
def W4 (c : Dev nD) : Valuation τ sig (Elt F) :=
  Pipeline.withArrays spec1 c (W2 m c) fun w => (dat1 (VB m) c).arrAt w cfg1.N
theorem W4_arr (c : Dev nD) (w : Fin cfg1.W) :
    W4 m c (Proc.devRef .tc (Pipeline.arrRef spec1 w)) = (dat1 (VB m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev VC : (c : Dev nD) → (b : Ref sig .tc) → Buf (Elt F) ((c : Thread nD τ).loc b) := fun c b => W4 m c b
theorem hF1 (c : Dev nD) (w : Fin cfg1.W) : (dat1 (VB m) c).arrAt w cfg1.N = VC m c (Pipeline.arrRef spec1 w) :=
  (W4_arr m c w).symm
theorem hrest1 (c : Dev nD) : ∀ b, b ∉ Finset.univ.image (Pipeline.arrRef spec1) → VC m c b = VB m c b :=
  fun b hb => W4_of_ne m c b fun w e => hb (Finset.mem_image.mpr ⟨w, Finset.mem_univ _, e⟩)

/-- The argument is an input of both regions, so both leave it as they found it. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := (W4_arr m c 0).trans (((dat1 (VB m) c).arrAt_in 0 rfl _).trans (A_eq1 (VB m) c 0))
    _ = W0 m c (Proc.devRef .tc main_arg0) := (W2_arr m c 0).trans (((dat0 (VA m) c).arrAt_in 0 rfl _).trans (A_eq0 (VA m) c 0))
    _ = m ((c : Thread nD τ).loc main_arg0) := rfl

/-- The result is the second region's output array. -/
theorem W4_main_v1 (c : Dev nD) : W4 m c (Proc.devRef .tc main_v1) = (dat1 (VB m) c).arrAt 2 cfg1.N := W4_arr m c 2

/-- The intermediate array, as the second region finds it, is the first region's output array. -/
theorem VB_main_v0 (c : Dev nD) : VB m c main_v0 = (dat0 (VA m) c).arrAt 1 cfg0.N := W2_arr m c 1

/-- The argument, as the second region finds it, is the launch contents. -/
theorem VB_main_arg0 (c : Dev nD) : VB m c main_arg0 = m ((c : Thread nD τ).loc main_arg0) :=
  (W2_arr m c 0).trans (((dat0 (VA m) c).arrAt_in 0 rfl _).trans (A_eq0 (VA m) c 0))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the launch contents, left at `W2`. Its arrays are split
    out of the unscoped buffers and put back at the exit contents; the generator register and the scoped rest enter
    the invariant (the scratch at anything) and come back out of it (the scratch forgotten). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W4`; it carries nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m c)) (run_main m ρ)

/-- The run with the result named: it ends at the second region's output array, the argument as launched. -/
theorem run_named : θ_run defs (onTc (τ := τ) (main (F := F))) ⟨m, fun _ => 0, ρ⟩ (fun r => ∀ c : Dev nD,
      r.2.mem ((c.tc : Thread nD τ).loc main_v1) = (dat1 (VB m) c).arrAt 2 cfg1.N
      ∧ r.2.mem ((c.tc : Thread nD τ).loc main_arg0) = m ((c.tc : Thread nD τ).loc main_arg0)) :=
  (θ_run defs _ _).mono (fun _ h c => ⟨(h c _ (mem_uc main_v1 (by decide))).trans (W4_main_v1 m c),
    (h c _ (mem_uc main_arg0 (by decide))).trans (W4_main_arg0 m c)⟩) (run_main m ρ)

end Cert.Kernel.Hand

end
-- ==== Proof.KernelIdeal.Body0.lean ====
import proofs.«161274_j15135464751187_1_alg».proof.Proof.Gen.KernelIdeal.Launch
import proofs.«161274_j15135464751187_1_alg».proof.Proof.Gen.KernelIdeal.Skeleton
import proofs.«161274_j15135464751187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The reduction body on whole staging buffers

The body of the first pallas_call adds, into a running [32, 1] vector kept in scratch, the sums over
channel, row and column of the eight-channel tile it is handed. At the first tile of a batch the
running vector is zeroed first; at the last tile it is scaled and stored into the output block. -/

/-- The point is the first channel tile of its batch. -/
abbrev isFirst (i : grid0.Coords) : Prop :=
  (Scalar.cmpi .ne (Scalar.extui (Scalar.cmpi .eq (BitVec.ofNat 32 (i 1).val) 0#32)) 0#32) = 1#1
/-- The point is the last channel tile of its batch. -/
abbrev isLast (i : grid0.Coords) : Prop := k0_cond2 i = 1#1

/-- The zero offsets of a rank-2 rectangle, however spelt. -/
theorem z2 : (![0, 0] : Fin 2 → Nat) = fun _ => 0 := by funext a; fin_cases a <;> rfl
theorem z3 : (![0, 0, 0] : Fin 3 → Nat) = fun _ => 0 := by funext a; fin_cases a <;> rfl
theorem z5 : (![0, 0, 0, 0, 0] : Fin 5 → Nat) = fun _ => 0 := by funext a; fin_cases a <;> rfl

set_option maxHeartbeats 1000000 in
/-- A middle tile: the running vector `xs` becomes `xs` plus the tile's sums; the output block is not touched. -/
theorem reduce_mid (c : Dev nD) (i : grid0.Coords)
    (arg2 : Memref sig .tc .vmem S1x8x32x128x128 .f32) (harg2 : arg2.IsWhole)
    (arg3 : Memref sig .tc .vmem S1x32x1 .f32) (harg3 : arg3.IsWhole)
    (arg4 : Memref sig .tc .vmem S32x1 .f32) (harg4 : arg4.IsWhole)
    (h0 : ¬isFirst i) (h1 : ¬isLast i)
    (x0 : Vec F S1x8x32x128x128 .f32) (d1 : Vec F S1x32x1 .f32) (xs : Vec F S32x1 .f32) (E : Set ℕ) (K : PUnit → sProp 𝕄) :
    iprop(owns (c : Thread nD τ) arg2 fullShare x0 ∗ owns (c : Thread nD τ) arg3 fullShare d1 ∗ owns (c : Thread nD τ) arg4 fullShare xs
        ∗ (iprop(owns (c : Thread nD τ) arg2 fullShare x0 ∗ owns (c : Thread nD τ) arg3 fullShare d1
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%fs, %hfs, HS⟩, Hk⟩
  obtain rfl := harg2.eq_unread hf0; obtain rfl := harg4.eq_unread hfs
  sl_exec (disch := first | exact h0 | exact h1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  refine (View.read_writes_eq_canon _ _ _ (fun y => ⟨_, List.mem_singleton_self _, ?_⟩)).trans ?_
  · exact View.mem_set_unit_zero z2 inb_S32x1_S32x1_0_0 y
  rw [View.canon_unit_zero z2]
  simp only [View.readAt_eq_ld, harg2.read_unread, harg4.read_unread, View.ld_unit_zero (S := S1x8x32x128x128) z5,
    View.ld_unit_zero (S := S32x1) z2]

set_option maxHeartbeats 1000000 in
/-- The first tile of a batch: whatever the scratch held, it ends at zero plus the tile's sums. -/
theorem reduce_first (c : Dev nD) (i : grid0.Coords)
    (arg2 : Memref sig .tc .vmem S1x8x32x128x128 .f32) (harg2 : arg2.IsWhole)
    (arg3 : Memref sig .tc .vmem S1x32x1 .f32) (harg3 : arg3.IsWhole)
    (arg4 : Memref sig .tc .vmem S32x1 .f32) (harg4 : arg4.IsWhole)
    (h0 : isFirst i) (h1 : ¬isLast i)
    (x0 : Vec F S1x8x32x128x128 .f32) (d1 : Vec F S1x32x1 .f32) (E : Set ℕ) (K : PUnit → sProp 𝕄) :
    iprop(owns (c : Thread nD τ) arg2 fullShare x0 ∗ owns (c : Thread nD τ) arg3 fullShare d1 ∗ (∃ d, owns (c : Thread nD τ) arg4 fullShare d)
        ∗ (iprop(owns (c : Thread nD τ) arg2 fullShare x0 ∗ owns (c : Thread nD τ) arg3 fullShare d1
            ∗ owns (c : Thread nD τ) arg4 fullShare (k0_pay2 x0 (k0_pay1 (F := F)))) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%f1, %hf1, H1⟩, ⟨%ds, %fs, -, HS⟩, Hk⟩
  obtain rfl := harg2.eq_unread hf0
  sl_exec (disch := first | exact h0 | exact h1)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_run_names
  refine (View.read_writes_eq_canon _ _ _ (fun y => ⟨_, List.Mem.head _, ?_⟩)).trans ?_
  · exact View.mem_set_unit_zero z2 inb_S32x1_S32x1_0_0 y
  rw [View.canon_cons_unit_zero z2, View.readCov_unit_zero (S := S32x1) arg4.view z2]
  simp only [View.readAt_eq_ld, harg2.read_unread, View.ld_unit_zero (S := S1x8x32x128x128) z5]

set_option maxHeartbeats 1000000 in
/-- The last tile of a batch: the running vector is updated as at a middle tile, and the output block ends at
    the updated vector scaled. -/
theorem reduce_last (c : Dev nD) (i : grid0.Coords)
    (arg2 : Memref sig .tc .vmem S1x8x32x128x128 .f32) (harg2 : arg2.IsWhole)
    (arg3 : Memref sig .tc .vmem S1x32x1 .f32) (harg3 : arg3.IsWhole)
    (arg4 : Memref sig .tc .vmem S32x1 .f32) (harg4 : arg4.IsWhole)
    (h0 : ¬isFirst i) (h1 : isLast i)
    (x0 : Vec F S1x8x32x128x128 .f32) (xs : Vec F S32x1 .f32) (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay3 (k0_pay2 x0 xs))
            ∗ owns (c : Thread nD τ) arg4 fullShare (k0_pay2 x0 xs)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact h0 | exact h1)
  sl_step
  iapply Hk
  isplitl [H0]
  · iexists _; isplitr; · ipureintro; exact hf0
    iexact H0
  isplitl [H1]
  · iexists _; isplitr
    swap; · iexact H1
    ipureintro
    sl_unfold_run_names
    refine (View.read_writes_eq_canon _ _ _ (fun y => ⟨_, List.mem_singleton_self _, ?_⟩)).trans ?_
    · exact View.mem_set_unit_zero z3 inb_S1x32x1_S1x32x1_0_0_0 y
    rw [View.canon_unit_zero z3, View.readCov_unit_zero (S := S32x1) arg4.view z2]
    simp only [View.readAt_eq_ld, harg2.read_unread, harg4.read_unread, View.ld_unit_zero (S := S1x8x32x128x128) z5,
      View.ld_unit_zero (S := S32x1) z2]
  iexists _; isplitr
  swap; · iexact HS
  ipureintro
  sl_unfold_run_names
  refine (View.read_writes_eq_canon _ _ _ (fun y => ⟨_, List.mem_singleton_self _, ?_⟩)).trans ?_
  · exact View.mem_set_unit_zero z2 inb_S32x1_S32x1_0_0 y
  rw [View.canon_unit_zero z2]
  simp only [View.readAt_eq_ld, harg2.read_unread, harg4.read_unread, View.ld_unit_zero (S := S1x8x32x128x128) z5,
    View.ld_unit_zero (S := S32x1) z2]

end Cert.KernelIdeal.Hand

end
-- ==== Proof.KernelIdeal.Data0.lean ====
import proofs.«161274_j15135464751187_1_alg».proof.Proof.Gen.KernelIdeal.Launch
import proofs.«161274_j15135464751187_1_alg».proof.Proof.Gen.KernelIdeal.Skeleton
import proofs.«161274_j15135464751187_1_alg».proof.Proof.Gen.KernelIdeal.Points
import proofs.«161274_j15135464751187_1_alg».proof.Proof.KernelIdeal.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: its proof data and its body obligation

The grid has 8 · 4 = 32 points, point `t` being channel tile `t % 4` of batch `t / 4`. The running vector kept in
scratch restarts at every point ≡ 0 (mod 4) and is written out, scaled, at every point ≡ 3 (mod 4); the output
window is idle elsewhere. Everything is stated at a parameter `V`, the buffers' contents when the region is entered. -/

section Region0

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data over `V` whose body leaves the block in place. -/
theorem before0_in_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## Which points are first and last tiles, and where the output window is idle -/

theorem first_iff : ∀ t : Fin cfg0.N, isFirst (grid0.coords t) ↔ t.val % 4 = 0 :=
  (by decide +kernel : ∀ t : Fin grid0.N, isFirst (grid0.coords t) ↔ t.val % 4 = 0)
theorem last_iff : ∀ t : Fin cfg0.N, isLast (grid0.coords t) ↔ t.val % 4 = 3 :=
  (by decide +kernel : ∀ t : Fin grid0.N, isLast (grid0.coords t) ↔ t.val % 4 = 3)
theorem in_live : ∀ t : Fin cfg0.N, cfg0.idle 0 (grid0.coords t) = false := by decide +kernel
theorem out_idle : ∀ t : Fin cfg0.N, ¬isLast (grid0.coords t) → cfg0.idle 1 (grid0.coords t) = true := by decide +kernel
theorem out_noflush : ∀ t : Fin cfg0.N, ¬isLast (grid0.coords t) → (cfg0.win 1).flush t = false := by decide +kernel
theorem out_live : ∀ t : Fin cfg0.N, isLast (grid0.coords t) → cfg0.idle 1 (grid0.coords t) = false := by decide +kernel

/-! ## The running vector -/

/-- The scratch after point `n`: at a first tile zero plus the tile's sums, else the previous point's vector plus them. -/
def acc0 (c : Dev nD) : (n : ℕ) → n < cfg0.N → Vec F S32x1 .f32
  | 0, hn => k0_pay2 (blk0 V c 0 ⟨0, hn⟩) (k0_pay1 (F := F))
  | n + 1, hn =>
    if (n + 1) % 4 = 0 then k0_pay2 (blk0 V c 0 ⟨n + 1, hn⟩) (k0_pay1 (F := F))
    else k0_pay2 (blk0 V c 0 ⟨n + 1, hn⟩) (acc0 c n (Nat.lt_of_succ_lt hn))

theorem acc0_first (c : Dev nD) (t : Fin cfg0.N) (h : t.val % 4 = 0) :
    acc0 V c t.val t.isLt = k0_pay2 (blk0 V c 0 t) (k0_pay1 (F := F)) := by
  obtain ⟨n, hn⟩ := t
  cases n with
  | zero => rfl
  | succ n => exact (if_pos h).trans rfl

theorem acc0_next (c : Dev nD) (t : Fin cfg0.N) (h : ¬t.val % 4 = 0) :
    acc0 V c t.val t.isLt = k0_pay2 (blk0 V c 0 t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The region's scratch, a whole buffer. -/
abbrev scr0 : Memref sig .tc .vmem S32x1 .f32 := Memref.whole cc0_scratch0

/-- The core's scoped buffers this region never touches (the other region's staging buffers), at some contents each. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant of a kernel that carries nothing, with the scratch named: the scratch at anything, the untouched
    buffers, the generator register at some state. -/
theorem PhiA0_eq (c : Dev nD) :
    (Pipeline.ΦA spec0 c : sProp 𝕄)
      = iprop(((∃ d, owns (c : Thread nD τ) scr0 fullShare d) ∗ others0 c) ∗ (∃ r, prngReg c r)) := by
  unfold Pipeline.ΦA others0; rw [scopedRest0_eq]; simp only [scr0, owns_whole]; rfl

/-- Before point `n`: at the start the scratch holds anything; afterwards what the point before left. -/
def Phi0 (c : Dev nD) : (n : ℕ) → n ≤ cfg0.N → sProp 𝕄
  | 0, _ => Pipeline.ΦA spec0 c
  | n + 1, hn => iprop((owns (c : Thread nD τ) scr0 fullShare (acc0 V c n hn) ∗ others0 c) ∗ (∃ r, prngReg c r))

theorem Phi0_succ (c : Dev nD) (n : ℕ) (hn : n < cfg0.N) :
    Phi0 V c (n + 1) hn = iprop((owns (c : Thread nD τ) scr0 fullShare (acc0 V c n hn) ∗ others0 c) ∗ (∃ r, prngReg c r)) := rfl

theorem Phi0_pos (c : Dev nD) (n : ℕ) (h : n ≤ cfg0.N) (hz : n ≠ 0) :
    Phi0 V c n h = iprop((owns (c : Thread nD τ) scr0 fullShare (acc0 V c (n - 1) (by omega)) ∗ others0 c) ∗ (∃ r, prngReg c r)) := by
  cases n with
  | zero => exact absurd rfl hz
  | succ n => rfl

/-- At any point the invariant yields the scratch at SOME contents. -/
theorem Phi0_any (c : Dev nD) (n : ℕ) (h : n ≤ cfg0.N) :
    Phi0 V c n h ⊢ iprop(((∃ d, owns (c : Thread nD τ) scr0 fullShare d) ∗ others0 c) ∗ (∃ r, prngReg c r)) := by
  cases n with
  | zero => rw [show Phi0 V c 0 h = Pipeline.ΦA spec0 c from rfl, PhiA0_eq]
  | succ n =>
    rw [Phi0_succ]
    iintro ⟨⟨HS, HR⟩, Hg⟩
    isplitl [HS HR]
    · isplitl [HS]
      · iexists _; iexact HS
      iexact HR
    iexact Hg

/-! ## The proof data -/

/-- The arrays as the region finds them; after the body the input's buffer at its block and the output's at the
    running vector scaled (consulted only where the output is live); the invariant above; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay3 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = k0_pay3 (acc0 V c t.val t.isLt) := by dsimp only [dat0]

theorem before0_0 (c : Dev nD) (t : Fin cfg0.N) (d) : (dat0 V c).before 0 t d = blk0 V c 0 t :=
  before0_in_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- By the point's residue mod 4: a first tile (the scratch at anything), a middle tile, or a last tile (the scratch
    at what the point before left), each by the body's triple for that case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [in_live t], after0_0]
  have hN : t.val < 32 := lt_of_lt_of_eq t.isLt (show cfg0.N = 32 from N_0)
  by_cases hl : t.val % 4 = 3
  · have hf : ¬t.val % 4 = 0 := by omega
    have hz : t.val ≠ 0 := by omega
    rw [show (dat0 V c).leavesExact 1 t = owns (c : Thread nD τ) (st0_1 t) fullShare ((dat0 V c).after 1 t) from by
      unfold Dat.leavesExact; rw [out_live t ((last_iff t).mpr hl)], after0_1, acc0_next V c t hf]
    rw [Phi0_castSucc V c t, Phi0_pos V c _ _ hz]
    iintro ⟨⟨⟨HS, HR⟩, Hg⟩, Ho, ⟨%d0, H0⟩, ⟨%d1, H1⟩⟩
    iapply (reduce_last c (grid0.coords t) _ _ _ _ _ _ (fun h => hf ((first_iff t).mp h)) ((last_iff t).mpr hl) (blk0 V c 0 t) _ Set.univ _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1
  · have hnl : ¬isLast (grid0.coords t) := fun h => hl ((last_iff t).mp h)
    rw [Dat.leavesExact_idle (dat0 V c) 1 t (out_idle t hnl) (out_noflush t hnl)]
    by_cases hf : t.val % 4 = 0
    · rw [acc0_first V c t hf, Phi0_castSucc V c t]
      iintro ⟨HΦ, Ho, ⟨%d0, H0⟩, ⟨%d1, H1⟩⟩
      ihave HΦ' := (Phi0_any V c _ _) $$ HΦ
      icases HΦ' with ⟨⟨HS, HR⟩, Hg⟩
      iapply (reduce_first c (grid0.coords t) _ _ _ _ _ _ ((first_iff t).mpr hf) hnl (blk0 V c 0 t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1
    · have hz : t.val ≠ 0 := fun h => hf (by rw [h])
      rw [acc0_next V c t hf]
      rw [Phi0_castSucc V c t, Phi0_pos V c _ _ hz]
      iintro ⟨⟨⟨HS, HR⟩, Hg⟩, Ho, ⟨%d0, H0⟩, ⟨%d1, H1⟩⟩
      iapply (reduce_mid c (grid0.coords t) _ _ _ _ _ _ (fun h => hf ((first_iff t).mp h)) hnl (blk0 V c 0 t) _ _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      iexists _; iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

/-- What a kernel that carries nothing is handed is the invariant before the first point. -/
theorem hin0 (c : Dev nD) : Pipeline.ΦA spec0 c ⊢ (dat0 V c).Φ 0 := by
  rw [show (dat0 V c).Φ 0 = Pipeline.ΦA spec0 c from rfl]

/-- After the last point the scratch's contents are forgotten again. -/
theorem hout0 (c : Dev nD) : (dat0 V c).Φ (Fin.last cfg0.N) ⊢ Pipeline.ΦA spec0 c := by
  rw [show (dat0 V c).Φ (Fin.last cfg0.N) = Phi0 V c cfg0.N (Nat.le_refl _) from rfl, PhiA0_eq]
  exact Phi0_any V c _ _

end Region0

end Cert.KernelIdeal.Hand

end
-- ==== Proof.KernelIdeal.Body1.lean ====
import proofs.«161274_j15135464751187_1_alg».proof.Proof.Gen.KernelIdeal.Launch
import proofs.«161274_j15135464751187_1_alg».proof.Proof.Gen.KernelIdeal.Skeleton
import proofs.«161274_j15135464751187_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The scaling body on whole staging buffers

The body of the second pallas_call multiplies the four-channel tile it is handed by the [1, 32, 1] vector of
means, broadcast along channel, row and column, and stores the product as the whole output block. -/

theorem y3 : (![0, 0, 0] : Fin 3 → Nat) = fun _ => 0 := by funext a; fin_cases a <;> rfl
theorem y5 : (![0, 0, 0, 0, 0] : Fin 5 → Nat) = fun _ => 0 := by funext a; fin_cases a <;> rfl

set_option maxHeartbeats 1000000 in
/-- The tile `x0` and the means `v` are left as they were; the output block ends at their product. -/
theorem scale_body (c : Dev nD) (i : grid1.Coords)
    (arg2 : Memref sig .tc .vmem S1x4x32x128x128 .f32) (harg2 : arg2.IsWhole)
    (arg3 : Memref sig .tc .vmem S1x32x1 .f32) (harg3 : arg3.IsWhole)
    (arg4 : Memref sig .tc .vmem S1x4x32x128x128 .f32) (harg4 : arg4.IsWhole)
    (x0 : Vec F S1x4x32x128x128 .f32) (v : Vec F S1x32x1 .f32) (E : Set ℕ) (K : PUnit → sProp 𝕄) :
    iprop(owns (c : Thread nD τ) arg2 fullShare x0 ∗ owns (c : Thread nD τ) arg3 fullShare v ∗ (∃ d, owns (c : Thread nD τ) arg4 fullShare d)
        ∗ (iprop(owns (c : Thread nD τ) arg2 fullShare x0 ∗ owns (c : Thread nD τ) arg3 fullShare v
            ∗ owns (c : Thread nD τ) arg4 fullShare (k1_pay1 v x0)) -∗ K ⟨⟩))
      ⊢ wp frame (wpE (defs₀ (F := F)) Variants.none c none) E (cc1__mul_kernel i arg2 harg2 arg3 harg3 arg4 harg4) K := by
  simp only [cc1__mul_kernel_eq_skeleton]; unfold cc1__mul_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  refine (View.read_writes_eq_canon _ _ _ (fun y => ⟨_, List.mem_singleton_self _, ?_⟩)).trans ?_
  · exact View.mem_set_unit_zero y5 inb_S1x4x32x128x128_S1x4x32x128x128_0_0_0_0_0 y
  rw [View.canon_unit_zero y5]
  simp only [View.readAt_eq_ld, harg2.read_unread, harg3.read_unread, View.ld_unit_zero (S := S1x4x32x128x128) y5,
    View.ld_unit_zero (S := S1x32x1) y3]

end Cert.KernelIdeal.Hand

end
-- ==== Proof.KernelIdeal.Data1.lean ====
import proofs.«161274_j15135464751187_1_alg».proof.Proof.Gen.KernelIdeal.Launch
import proofs.«161274_j15135464751187_1_alg».proof.Proof.Gen.KernelIdeal.Skeleton
import proofs.«161274_j15135464751187_1_alg».proof.Proof.Gen.KernelIdeal.Points
import proofs.«161274_j15135464751187_1_alg».proof.Proof.KernelIdeal.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: its proof data and its body obligation

The grid has 8 · 8 = 64 points, point `t` being the four-channel tile `t % 8` of batch `t / 8`. The body carries
nothing from point to point: the output block is a function of the two input blocks at the point. Everything is
stated at a parameter `V`, the buffers' contents when the region is entered. -/

section Region1

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not (a block index that did not move
    is the same block), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The arrays as the region finds them; after the body each input's buffer at its block and the output's at the
    tile scaled by the means; the invariant of a kernel that carries nothing; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 1 t) (blk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = k1_pay1 (blk1 V c 1 t) (blk1 V c 0 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The inputs' buffers hold their blocks, so the body's triple applies; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (scale_body c (grid1.coords t) _ _ _ _ _ _ (blk1 V c 0 t) (blk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Run.lean ====
import proofs.«161274_j15135464751187_1_alg».proof.Proof.Gen.KernelIdeal.Launch
import proofs.«161274_j15135464751187_1_alg».proof.Proof.Gen.KernelIdeal.Skeleton
import proofs.«161274_j15135464751187_1_alg».proof.Proof.Gen.KernelIdeal.Points
import proofs.«161274_j15135464751187_1_alg».proof.Proof.KernelIdeal.Data0
import proofs.«161274_j15135464751187_1_alg».proof.Proof.KernelIdeal.Data1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: two kernel regions, one after the other

@main is the first pallas_call then the second, with no host operation between them. The buffers' contents at each
boundary are named: at launch, after the first region (its output array at what its write-backs leave), after the
second. Each region is a segment entered from "every unscoped buffer at the boundary's contents" and left at the
next boundary's; the launch theorem for a list of segments gives the run, whose final state holds every unscoped
buffer at the last boundary's contents. -/

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- The same read at the TensorCore's references: what the first region's proof data take. -/
abbrev VA : (c : Dev nD) → (b : Ref sig .tc) → Buf (Elt F) ((c : Thread nD τ).loc b) := fun c b => W0 m c b
/-- After the first region: its arrays at what the pipeline leaves, every other buffer as entered. -/
def W2 (c : Dev nD) : Valuation τ sig (Elt F) :=
  Pipeline.withArrays spec0 c (W0 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the TensorCore's references: what the second region's proof data take. -/
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- After the second region: its arrays at what the pipeline leaves, every other buffer as entered. -/
def W4 (c : Dev nD) : Valuation τ sig (Elt F) :=
  Pipeline.withArrays spec1 c (W2 m c) fun w => (dat1 (VB m) c).arrAt w cfg1.N
theorem W4_arr (c : Dev nD) (w : Fin cfg1.W) :
    W4 m c (Proc.devRef .tc (Pipeline.arrRef spec1 w)) = (dat1 (VB m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev VC : (c : Dev nD) → (b : Ref sig .tc) → Buf (Elt F) ((c : Thread nD τ).loc b) := fun c b => W4 m c b
theorem hF1 (c : Dev nD) (w : Fin cfg1.W) : (dat1 (VB m) c).arrAt w cfg1.N = VC m c (Pipeline.arrRef spec1 w) :=
  (W4_arr m c w).symm
theorem hrest1 (c : Dev nD) : ∀ b, b ∉ Finset.univ.image (Pipeline.arrRef spec1) → VC m c b = VB m c b :=
  fun b hb => W4_of_ne m c b fun w e => hb (Finset.mem_image.mpr ⟨w, Finset.mem_univ _, e⟩)

/-- The argument is an input of both regions, so both leave it as they found it. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := (W4_arr m c 0).trans (((dat1 (VB m) c).arrAt_in 0 rfl _).trans (A_eq1 (VB m) c 0))
    _ = W0 m c (Proc.devRef .tc main_arg0) := (W2_arr m c 0).trans (((dat0 (VA m) c).arrAt_in 0 rfl _).trans (A_eq0 (VA m) c 0))
    _ = m ((c : Thread nD τ).loc main_arg0) := rfl

/-- The result is the second region's output array. -/
theorem W4_main_v1 (c : Dev nD) : W4 m c (Proc.devRef .tc main_v1) = (dat1 (VB m) c).arrAt 2 cfg1.N := W4_arr m c 2

/-- The intermediate array, as the second region finds it, is the first region's output array. -/
theorem VB_main_v0 (c : Dev nD) : VB m c main_v0 = (dat0 (VA m) c).arrAt 1 cfg0.N := W2_arr m c 1

/-- The argument, as the second region finds it, is the launch contents. -/
theorem VB_main_arg0 (c : Dev nD) : VB m c main_arg0 = m ((c : Thread nD τ).loc main_arg0) :=
  (W2_arr m c 0).trans (((dat0 (VA m) c).arrAt_in 0 rfl _).trans (A_eq0 (VA m) c 0))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the launch contents, left at `W2`. Its arrays are split
    out of the unscoped buffers and put back at the exit contents; the generator register and the scoped rest enter
    the invariant (the scratch at anything) and come back out of it (the scratch forgotten). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VA m) c)
    unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W4`; it carries nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W4_main_arg0 m c)) (run_main m ρ)

/-- The run with the result named: it ends at the second region's output array, the argument as launched. -/
theorem run_named : θ_run defs (onTc (τ := τ) (main (F := F))) ⟨m, fun _ => 0, ρ⟩ (fun r => ∀ c : Dev nD,
      r.2.mem ((c.tc : Thread nD τ).loc main_v1) = (dat1 (VB m) c).arrAt 2 cfg1.N
      ∧ r.2.mem ((c.tc : Thread nD τ).loc main_arg0) = m ((c.tc : Thread nD τ).loc main_arg0)) :=
  (θ_run defs _ _).mono (fun _ h c => ⟨(h c _ (mem_uc main_v1 (by decide))).trans (W4_main_v1 m c),
    (h c _ (mem_uc main_arg0 (by decide))).trans (W4_main_arg0 m c)⟩) (run_main m ρ)

end Cert.KernelIdeal.Hand

end
-- ==== Proof.Spec.lean ====
/-
  The function both programs compute, over the extended reals: every entry of `x : [8, 32, 32, 128, 128]`
  (batch, channel, depth, row, column) times the mean of `x` over channel, row and column at the entry's
  batch and depth. The mean is the sum of 32·128·128 = 2^19 entries times the reciprocal 2^-19, an exact
  power of two, so the product with it and the quotient by 2^19 agree on every extended real.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The argument's shape: batch, channel, depth, row, column. -/
abbrev X : Shape := ⟨5, ![8, 32, 32, 128, 128]⟩

/-- The sum of `x` over channel, row and column at batch `b` and depth `d`. -/
def total (x : X.Idx → EReal) (b : Fin 8) (d : Fin 32) : EReal :=
  ∑ c : Fin 32, ∑ h : Fin 128, ∑ w : Fin 128, x (ix5 b c d h w)

/-- The same sum restricted to the `k`-th tile of eight channels. -/
def tile (x : X.Idx → EReal) (b : Fin 8) (d : Fin 32) (k : Fin 4) : EReal :=
  ∑ c : Fin 8, ∑ h : Fin 128, ∑ w : Fin 128, x (ix5 b (⟨8 * k.val + c.val, by omega⟩ : Fin 32) d h w)

/-- The reciprocal of the number of summed entries, 1 / 2^19. -/
def invN : EReal := ((1 / 524288 : ℝ) : EReal)

/-- Every entry scaled by the mean over channel, row and column at its batch and depth. -/
def G (x : X.Idx → EReal) : X.Idx → EReal :=
  fun i => x i * (total x ⟨(i 0).val, (i 0).isLt⟩ ⟨(i 2).val, (i 2).isLt⟩ * invN)

/-- A sum over thirty-two terms is the sum, over four blocks, of the sums of the eight terms of each
    block: the map `(k, c) ↦ 8·k + c` is a bijection from `Fin 4 × Fin 8` onto `Fin 32`. -/
private theorem sum_fin32_blocks {M : Type} [AddCommMonoid M] (f : Fin 32 → M) :
    ∑ c : Fin 32, f c = ∑ k : Fin 4, ∑ c : Fin 8, f (⟨8 * k.val + c.val, by omega⟩ : Fin 32) := by
  rw [← (finProdFinEquiv (m := 4) (n := 8)).sum_comp f, Fintype.sum_prod_type]
  refine Finset.sum_congr rfl fun k _ => Finset.sum_congr rfl fun c _ => ?_
  congr 1
  apply Fin.ext
  simp only [finProdFinEquiv_apply_val]
  omega

/-- The f32 word `0x36000000` is 2^-19 exactly: sign 0, biased exponent 108, zero fraction, so the
    value is 2^23 · 2^(108 - 127 - 23) = 2^-19. -/
theorem ofBits_invN : Ideal.ofBits .f32 0x36000000#32 = invN := by
  simp [Ideal.ofBits, Ideal.ieee, invN, -EReal.coe_mul]
  norm_num

/-- The f32 word `0x49000000` is 2^19 exactly. -/
theorem ofBits_N : Ideal.ofBits .f32 0x49000000#32 = ((524288 : ℝ) : EReal) := by
  simp [Ideal.ofBits, Ideal.ieee, -EReal.coe_mul]
  norm_num

/-- The four tiles of eight channels, added from zero left to right, make the whole sum: addition of
    extended reals is commutative and associative, so the grouping does not matter. -/
theorem total_tiles (x : X.Idx → EReal) (b : Fin 8) (d : Fin 32) :
    (((0 + tile x b d 0) + tile x b d 1) + tile x b d 2) + tile x b d 3 = total x b d := by
  unfold total
  rw [sum_fin32_blocks (fun c => ∑ h : Fin 128, ∑ w : Fin 128, x (ix5 b c d h w)),
    Fin.sum_univ_four, zero_add]
  rfl

/-- Dividing by 2^19 is multiplying by 2^-19, on every extended real. -/
theorem div_N (s : EReal) : Ideal.div s ((524288 : ℝ) : EReal) = s * invN :=
  Ideal.div_coe (by norm_num) s

end Cert.Spec

end
-- ==== Proof.Payloads.lean ====
/-
  The idealized kernel's four payloads read at an index, over the extended reals.

  The reduce kernel's first payload is the zero vector; its second adds to the carried [32,1] vector the sum of the
  [1,8,32,128,128] block over its eight channels, rows and columns at each depth; its third multiplies the carried
  vector by 2^-19. The multiply kernel's payload is the [1,4,32,128,128] block times the [1,32,1] vector at the
  entry's depth.
-/
import proofs.«161274_j15135464751187_1_alg».proof.Proof.Gen.KernelIdeal.Skeleton
import proofs.«161274_j15135464751187_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## Layout operations at an index -/

section Layout
variable {α : Type}

/-- An `[m, a, b, c]` array cast to `[1, m, a, b, c]` reads, at `(u, k, i, j, l)`, the operand at `(k, i, j, l)`. -/
theorem shapeCast_abcd_1abcd_apply {m a b c : ℕ} (x : (⟨4, ![m, a, b, c]⟩ : Shape).Idx → α)
    (h : (⟨4, ![m, a, b, c]⟩ : Shape).ShapeCasts ⟨5, ![1, m, a, b, c]⟩) (u : Fin 1) (k : Fin m) (i : Fin a) (j : Fin b)
    (l : Fin c) : shapeCast ⟨5, ![1, m, a, b, c]⟩ x h (ix5 u k i j l) = x (ix4 k i j l) :=
  shapeCast_apply x h _ _ (by
    have hu : u.val = 0 := by omega
    rw [Shape.rowMajor_val_five, Shape.rowMajor_val_four]
    show ((k.val * a + i.val) * b + j.val) * c + l.val = (((u.val * m + k.val) * a + i.val) * b + j.val) * c + l.val
    rw [hu, Nat.zero_mul, Nat.zero_add])

/-- A `[1, m, a, b, c]` array cast to `[m, a, b, c]` reads, at `(k, i, j, l)`, the operand at `(0, k, i, j, l)`. -/
theorem shapeCast_1abcd_abcd_apply {m a b c : ℕ} (x : (⟨5, ![1, m, a, b, c]⟩ : Shape).Idx → α)
    (h : (⟨5, ![1, m, a, b, c]⟩ : Shape).ShapeCasts ⟨4, ![m, a, b, c]⟩) (k : Fin m) (i : Fin a) (j : Fin b) (l : Fin c) :
    shapeCast ⟨4, ![m, a, b, c]⟩ x h (ix4 k i j l) = x (ix5 (0 : Fin 1) k i j l) :=
  shapeCast_apply x h _ _ (by
    rw [Shape.rowMajor_val_five, Shape.rowMajor_val_four]
    show (((0 * m + k.val) * a + i.val) * b + j.val) * c + l.val = ((k.val * a + i.val) * b + j.val) * c + l.val
    rw [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[1, a, 1, 1]` reads, at `(u, i, v, w)`, the operand at `(i, 0)`. -/
theorem shapeCast_a1_1a11_apply {a : ℕ} (x : (⟨2, ![a, 1]⟩ : Shape).Idx → α)
    (h : (⟨2, ![a, 1]⟩ : Shape).ShapeCasts ⟨4, ![1, a, 1, 1]⟩) (u : Fin 1) (i : Fin a) (v w : Fin 1) :
    shapeCast ⟨4, ![1, a, 1, 1]⟩ x h (ix4 u i v w) = x (ix2 i (0 : Fin 1)) :=
  shapeCast_apply x h _ _ (by
    have hu : u.val = 0 := by omega
    have hv : v.val = 0 := by omega
    have hw : w.val = 0 := by omega
    rw [Shape.rowMajor_val_four, Shape.rowMajor_val_two]
    show i.val * 1 + 0 = ((u.val * a + i.val) * 1 + v.val) * 1 + w.val
    rw [hu, hv, hw, Nat.zero_mul, Nat.zero_add, Nat.mul_one, Nat.add_zero, Nat.add_zero, Nat.mul_one])

/-- A `[1, a, 1, 1]` array broadcast to `[m, a, b, c]` reads, at `(k, i, j, l)`, the operand at `(0, i, 0, 0)`. -/
theorem broadcastTo_1a11_mabc_apply {m a b c : ℕ} (x : (⟨4, ![1, a, 1, 1]⟩ : Shape).Idx → α)
    (h : (⟨4, ![1, a, 1, 1]⟩ : Shape).Broadcasts ⟨4, ![m, a, b, c]⟩) (k : Fin m) (i : Fin a) (j : Fin b) (l : Fin c) :
    broadcastTo ⟨4, ![m, a, b, c]⟩ x h (ix4 k i j l) = x (ix4 (0 : Fin 1) i (0 : Fin 1) (0 : Fin 1)) := by
  refine broadcastTo_apply x h (ix4 k i j l) (ix4 (0 : Fin 1) i (0 : Fin 1) (0 : Fin 1)) fun ax => ?_
  match ax with
  | ⟨0, _⟩ => rfl
  | ⟨1, _⟩ =>
    show i.val = if a = 1 then 0 else i.val
    split
    · have := i.isLt; omega
    · rfl
  | ⟨2, _⟩ => rfl
  | ⟨3, _⟩ => rfl

end Layout

/-! ## The reduce kernel's zero payload -/

/-- The first payload is the splat of the zero word: the extended real `0` at every index. -/
theorem pay1_apply (d : Fin 32) : k0_pay1 (F := Ideal) (ix2 d (0 : Fin 1)) = 0 := by
  unfold k0_pay1
  refine (congrFun (shapeCast_self _ _) _).trans ?_
  exact Ideal.ofBits_zero_f32

/-! ## The reduce kernel's scaling payload -/

/-- The third payload is the carried vector times the splat of the word `0x36000000`, which is 2^-19, stored with a
    leading unit axis. -/
theorem pay3_apply (v17 : Vec Ideal S32x1 .f32) (d : Fin 32) :
    k0_pay3 (F := Ideal) v17 (ix3 (0 : Fin 1) d (0 : Fin 1)) = v17 (ix2 d (0 : Fin 1)) * Cert.Spec.invN := by
  unfold k0_pay3
  refine (shapeCast_ab_1ab_apply _ _ (0 : Fin 1) d (0 : Fin 1)).trans ?_
  show v17 (ix2 d (0 : Fin 1)) * Ideal.ofBits .f32 0x36000000#32 = _
  rw [Cert.Spec.ofBits_invN]

/-! ## The multiply kernel's payload -/

/-- The multiply kernel's payload is the block times the `[1, 32, 1]` vector at the entry's depth: the vector is viewed
    `[1, 32, 1, 1]` and broadcast along channel, row and column. -/
theorem mul_apply (v0 : Vec Ideal S1x32x1 .f32) (v3 : Vec Ideal S1x4x32x128x128 .f32) (c : Fin 4) (d : Fin 32)
    (h w : Fin 128) :
    k1_pay1 (F := Ideal) v0 v3 (ix5 (0 : Fin 1) c d h w)
      = v3 (ix5 (0 : Fin 1) c d h w) * v0 (ix3 (0 : Fin 1) d (0 : Fin 1)) := by
  unfold k1_pay1
  refine (shapeCast_abcd_1abcd_apply _ _ (0 : Fin 1) c d h w).trans ?_
  refine (mulf_apply _ _ _).trans ?_
  refine congrArg₂ (· * ·) ?_ ?_
  · exact shapeCast_1abcd_abcd_apply _ _ c d h w
  · refine (broadcastTo_1a11_mabc_apply _ _ c d h w).trans ?_
    refine (shapeCast_a1_1a11_apply _ _ (0 : Fin 1) d (0 : Fin 1) (0 : Fin 1)).trans ?_
    exact shapeCast_1ab_ab_apply _ _ d (0 : Fin 1)

/-! ## The reduce kernel's accumulating payload -/

/-- The sum over the columns of an `[8, 32, 128, 128]` vector, at `(c, d, h)`. -/
theorem sum_cols_apply (src : FVec Ideal S8x32x128x128 .f32) (c : Fin 8) (d : Fin 32) (h : Fin 128) :
    multiReduction (F := Ideal) .add [3] S8x32x128 src 0x00000000#32 reduces_S8x32x128x128_S8x32x128 (.inl rfl) rfl
        (ix3 c d h)
      = ∑ w : Fin 128, src (ix4 c d h w) := by
  refine (Ideal.multiReduction_add_single src 0x00000000#32 reduces_S8x32x128x128_S8x32x128 (.inl rfl) rfl
    (ix3 c d h)).trans ?_
  refine Finset.sum_congr rfl fun w _ => congrArg src ?_
  funext a
  match a with
  | ⟨0, _⟩ => rfl
  | ⟨1, _⟩ => rfl
  | ⟨2, _⟩ => rfl
  | ⟨3, _⟩ => rfl

/-- The sum over the rows of an `[8, 32, 128]` vector, at `(c, d)`. -/
theorem sum_rows_apply (src : FVec Ideal S8x32x128 .f32) (c : Fin 8) (d : Fin 32) :
    multiReduction (F := Ideal) .add [2] S8x32 src 0x00000000#32 reduces_S8x32x128_S8x32 (.inl rfl) rfl (ix2 c d)
      = ∑ h : Fin 128, src (ix3 c d h) := by
  refine (Ideal.multiReduction_add_single src 0x00000000#32 reduces_S8x32x128_S8x32 (.inl rfl) rfl (ix2 c d)).trans ?_
  refine Finset.sum_congr rfl fun h _ => congrArg src ?_
  funext a
  match a with
  | ⟨0, _⟩ => rfl
  | ⟨1, _⟩ => rfl
  | ⟨2, _⟩ => rfl

/-- The sum over the channels of an `[8, 32]` vector, at `d`. -/
theorem sum_chans_apply (src : FVec Ideal S8x32 .f32) (d : Fin 32) :
    multiReduction (F := Ideal) .add [0] S32 src 0x00000000#32 reduces_S8x32_S32 (.inl rfl) rfl (ix1 d)
      = ∑ c : Fin 8, src (ix2 c d) := by
  refine (Ideal.multiReduction_add_single src 0x00000000#32 reduces_S8x32_S32 (.inl rfl) rfl (ix1 d)).trans ?_
  refine Finset.sum_congr rfl fun c _ => congrArg src ?_
  funext a
  match a with
  | ⟨0, _⟩ => rfl
  | ⟨1, _⟩ => rfl

/-- The second payload adds to the carried vector, at depth `d`, the sum of the block over its eight channels, its rows
    and its columns: the block is viewed `[8, 32, 128, 128]`, summed over columns, then rows, then channels, and the
    `[32]` result is viewed as a column. -/
theorem pay2_apply (v3 : Vec Ideal S1x8x32x128x128 .f32) (v8 : Vec Ideal S32x1 .f32) (d : Fin 32) :
    k0_pay2 (F := Ideal) v3 v8 (ix2 d (0 : Fin 1))
      = v8 (ix2 d (0 : Fin 1)) + ∑ c : Fin 8, ∑ h : Fin 128, ∑ w : Fin 128, v3 (ix5 (0 : Fin 1) c d h w) := by
  unfold k0_pay2
  refine (congrFun (shapeCast_self _ _) _).trans ?_
  refine (addf_apply _ _ _).trans ?_
  refine congrArg (v8 (ix2 d (0 : Fin 1)) + ·) ?_
  refine (shapeCast_a_a1_apply _ _ d (0 : Fin 1)).trans ?_
  refine (sum_chans_apply _ d).trans ?_
  refine Finset.sum_congr rfl fun c _ => ?_
  refine (sum_rows_apply _ c d).trans ?_
  refine Finset.sum_congr rfl fun h _ => ?_
  refine (sum_cols_apply _ c d h).trans ?_
  refine Finset.sum_congr rfl fun w _ => ?_
  exact shapeCast_1abcd_abcd_apply _ _ c d h w

end Cert.KernelIdeal.Pay

end
-- ==== Proof.Means.lean ====
/-
  What the first pallas_call leaves in its output array [8, 32, 1], at the ideal instance: at (b, d, 0) the sum of the
  argument over channel, row and column at batch b and depth d, times 2^-19. The output block of batch b is written
  back at the last of the batch's four points, where the running vector holds the four channel tiles' sums added
  from zero.
-/
import proofs.«161274_j15135464751187_1_alg».proof.Proof.KernelIdeal.Run
import proofs.«161274_j15135464751187_1_alg».proof.Proof.Spec
import proofs.«161274_j15135464751187_1_alg».proof.Proof.Payloads
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The array of means: at (b, d, 0) the total over channel, row and column at batch b and depth d, times 2^-19. -/
def means (x : Cert.Spec.X.Idx → EReal) : S8x32x1.Idx → EReal :=
  fun j => Cert.Spec.total x ⟨(j 0).val, (j 0).isLt⟩ ⟨(j 1).val, (j 1).isLt⟩ * Cert.Spec.invN

/-- The mean at an index whose batch and depth coordinates are named. -/
theorem means_apply (x : Cert.Spec.X.Idx → EReal) (i : S8x32x1.Idx) (b : Fin 8) (d : Fin 32) (hb : (i 0).val = b.val)
    (hd : (i 1).val = d.val) : means x i = Cert.Spec.total x b d * Cert.Spec.invN := by
  unfold means
  exact congrArg₂ (fun p q => Cert.Spec.total x p q * Cert.Spec.invN) (Fin.ext hb) (Fin.ext hd)

/-! ## Where the grid's points sit -/

/-- The grid's 32 points: point `t` is channel tile `t % 4` of batch `t / 4`. The argument's block at point `t` has block
    index `(t / 4, t % 4, 0, 0, 0)` and the output's block has block index `(t / 4, 0, 0)`: decided over the grid. -/
theorem idx_facts : ∀ t : Fin cfg0.N, win0_0.index t (0 : Fin 5) = t.val / 4 ∧ win0_0.index t (1 : Fin 5) = t.val % 4
    ∧ win0_0.index t (2 : Fin 5) = 0 ∧ win0_0.index t (3 : Fin 5) = 0 ∧ win0_0.index t (4 : Fin 5) = 0
    ∧ win0_1.index t (0 : Fin 3) = t.val / 4 ∧ win0_1.index t (1 : Fin 3) = 0 ∧ win0_1.index t (2 : Fin 3) = 0 :=
  (by decide +kernel : ∀ t : Fin grid0.N, _)

theorem lt_N (t : Fin cfg0.N) : t.val < 32 := lt_of_lt_of_eq t.isLt (show cfg0.N = 32 from N_0)

/-! ## A channel tile's sum -/

/-- Point `t`'s block of the argument, read at `(0, c', d, h, w)`, is the argument at batch `t / 4`, channel
    `8 · (t % 4) + c'`, depth `d`, row `h`, column `w`. -/
theorem blk_arg_apply (c : Dev nD) (t : Fin cfg0.N) (b : Fin 8) (k : Fin 4) (hb : t.val / 4 = b.val) (hk : t.val % 4 = k.val)
    (c' : Fin 8) (d : Fin 32) (h w : Fin 128) :
    (blk0 (F := Ideal) (VA m) c 0 t : Vec Ideal S1x8x32x128x128 .f32) (ix5 (0 : Fin 1) c' d h w)
      = (m ((c.tc : Thread nD τ).loc main_arg0) : Cert.Spec.X.Idx → EReal)
          (ix5 b (⟨8 * k.val + c'.val, by omega⟩ : Fin 32) d h w) := by
  obtain ⟨e0, e1, e2, e3, e4, -, -, -⟩ := idx_facts t
  have hN := lt_N t
  show VA m c main_arg0 (((cfg0.win 0).blk t).view.emb (ix5 (0 : Fin 1) c' d h w)) = _
  refine congrArg (m ((c.tc : Thread nD τ).loc main_arg0)) ?_
  funext a; apply Fin.ext
  match a with
  | ⟨0, _⟩ => show win0_0.index t (0 : Fin 5) * 1 + 1 * 0 = b.val; omega
  | ⟨1, _⟩ => show win0_0.index t (1 : Fin 5) * 8 + 1 * c'.val = 8 * k.val + c'.val; omega
  | ⟨2, _⟩ => show win0_0.index t (2 : Fin 5) * 32 + 1 * d.val = d.val; omega
  | ⟨3, _⟩ => show win0_0.index t (3 : Fin 5) * 128 + 1 * h.val = h.val; omega
  | ⟨4, _⟩ => show win0_0.index t (4 : Fin 5) * 128 + 1 * w.val = w.val; omega

/-- A block that reads the argument at batch `b`, channels `8 · k + c'`, sums over its eight channels, rows and
    columns at depth `d` to the `k`-th tile's sum of the argument at that batch and depth. -/
theorem tile_eq (x : Cert.Spec.X.Idx → EReal) (B : Vec Ideal S1x8x32x128x128 .f32) (b : Fin 8) (k : Fin 4) (d : Fin 32)
    (hB : ∀ (c' : Fin 8) (h w : Fin 128),
      B (ix5 (0 : Fin 1) c' d h w) = x (ix5 b (⟨8 * k.val + c'.val, by omega⟩ : Fin 32) d h w)) :
    (∑ c' : Fin 8, ∑ h : Fin 128, ∑ w : Fin 128, B (ix5 (0 : Fin 1) c' d h w)) = Cert.Spec.tile x b d k := by
  unfold Cert.Spec.tile
  exact Finset.sum_congr rfl fun c' _ => Finset.sum_congr rfl fun h _ => Finset.sum_congr rfl fun w _ => hB c' h w

/-- So the sum of point `t`'s block at depth `d` is the `t % 4`-th tile's sum of the argument at batch `t / 4`. -/
theorem tile_at (c : Dev nD) (t : Fin cfg0.N) (b : Fin 8) (k : Fin 4) (hb : t.val / 4 = b.val) (hk : t.val % 4 = k.val)
    (d : Fin 32) :
    (∑ c' : Fin 8, ∑ h : Fin 128, ∑ w : Fin 128,
        (show Vec Ideal S1x8x32x128x128 .f32 from blk0 (F := Ideal) (VA m) c 0 t) (ix5 (0 : Fin 1) c' d h w))
      = Cert.Spec.tile (m ((c.tc : Thread nD τ).loc main_arg0)) b d k :=
  tile_eq _ _ b k d fun c' h w => blk_arg_apply m c t b k hb hk c' d h w

/-! ## The running vector at a batch's last point -/

/-- After the last of a batch's four points the running vector holds, at depth `d`, the four channel tiles' sums added
    from zero: the batch's total over channel, row and column. -/
theorem acc_last (c : Dev nD) (t : Fin cfg0.N) (ht : t.val % 4 = 3) (b : Fin 8) (hb : t.val / 4 = b.val) (d : Fin 32) :
    acc0 (F := Ideal) (VA m) c t.val t.isLt (ix2 d (0 : Fin 1))
      = Cert.Spec.total (m ((c.tc : Thread nD τ).loc main_arg0)) b d := by
  have hN := lt_N t
  have h2 : t.val - 1 < cfg0.N := Nat.lt_of_le_of_lt (Nat.sub_le _ _) t.isLt
  have h1 : t.val - 1 - 1 < cfg0.N := Nat.lt_of_le_of_lt (Nat.sub_le _ _) h2
  have h0 : t.val - 1 - 1 - 1 < cfg0.N := Nat.lt_of_le_of_lt (Nat.sub_le _ _) h1
  have e3 := acc0_next (F := Ideal) (VA m) c t (by omega)
  have e2 := acc0_next (F := Ideal) (VA m) c ⟨t.val - 1, h2⟩ (by show ¬(t.val - 1) % 4 = 0; omega)
  have e1 := acc0_next (F := Ideal) (VA m) c ⟨t.val - 1 - 1, h1⟩ (by show ¬(t.val - 1 - 1) % 4 = 0; omega)
  have e0 := acc0_first (F := Ideal) (VA m) c ⟨t.val - 1 - 1 - 1, h0⟩ (by show (t.val - 1 - 1 - 1) % 4 = 0; omega)
  rw [← Cert.Spec.total_tiles]
  refine (congrFun e3 _).trans ((Pay.pay2_apply _ _ d).trans ?_)
  refine congrArg₂ (· + ·) ?_ (tile_at m c t b 3 hb ht d)
  refine (congrFun e2 _).trans ((Pay.pay2_apply _ _ d).trans ?_)
  refine congrArg₂ (· + ·) ?_ (tile_at m c ⟨t.val - 1, h2⟩ b 2 (by show (t.val - 1) / 4 = b.val; omega)
    (by show (t.val - 1) % 4 = 2; omega) d)
  refine (congrFun e1 _).trans ((Pay.pay2_apply _ _ d).trans ?_)
  refine congrArg₂ (· + ·) ?_ (tile_at m c ⟨t.val - 1 - 1, h1⟩ b 1 (by show (t.val - 1 - 1) / 4 = b.val; omega)
    (by show (t.val - 1 - 1) % 4 = 1; omega) d)
  refine (congrFun e0 _).trans ((Pay.pay2_apply _ _ d).trans ?_)
  exact congrArg₂ (· + ·) (Pay.pay1_apply d) (tile_at m c ⟨t.val - 1 - 1 - 1, h0⟩ b 0
    (by show (t.val - 1 - 1 - 1) / 4 = b.val; omega) (by show (t.val - 1 - 1 - 1) % 4 = 0; omega) d)

/-! ## What a batch's last point writes back -/

/-- A vector holding a batch's totals, scaled and stored with a leading unit axis, is the batch's block of the means. -/
theorem scaled_apply (x : Cert.Spec.X.Idx → EReal) (A : Vec Ideal S32x1 .f32) (b : Fin 8)
    (hA : ∀ d : Fin 32, A (ix2 d (0 : Fin 1)) = Cert.Spec.total x b d) (j : S1x32x1.Idx) (i : S8x32x1.Idx)
    (h0 : (i 0).val = b.val) (h1 : (i 1).val = (j 1).val) :
    k0_pay3 (F := Ideal) A j = means x i := by
  obtain ⟨u, d, v, rfl⟩ : ∃ (u : Fin 1) (d : Fin 32) (v : Fin 1), j = ix3 u d v := ⟨j 0, j 1, j 2, eq_ix3 j⟩
  obtain rfl : u = 0 := Subsingleton.elim _ _
  obtain rfl : v = 0 := Subsingleton.elim _ _
  rw [Pay.pay3_apply, hA, means_apply x i b d h0 h1]

/-- What a point that writes back leaves in the output array is its block of the means of the argument. -/
theorem flushed_means (c : Dev nD) (t : Fin cfg0.N) (hf : (cfg0.win 1).flush t = true) :
    (dat0 (F := Ideal) (VA m) c).flushed 1 t
      = ((cfg0.win 1).blk t).view.read (Elt Ideal) (means (m ((c.tc : Thread nD τ).loc main_arg0))) := by
  have ht : t.val % 4 = 3 := (flush0_1 t).mp hf
  have hN := lt_N t
  obtain ⟨-, -, -, -, -, e5, e6, e7⟩ := idx_facts t
  show (cfg0.win 1).cut (grid0.coords t) ((dat0 (F := Ideal) (VA m) c).after 1 t) = _
  rw [after0_1]
  funext j
  refine scaled_apply (m ((c.tc : Thread nD τ).loc main_arg0)) _ (⟨t.val / 4, by omega⟩ : Fin 8)
    (fun d => acc_last m c t ht _ rfl d) _ (((cfg0.win 1).blk t).view.emb j) ?_ ?_
  · show win0_1.index t (0 : Fin 3) * 1 + 1 * (j 0).val = t.val / 4
    have hj : (j 0).val < 1 := (j 0).isLt
    omega
  · show win0_1.index t (1 : Fin 3) * 32 + 1 * (j 1).val = (j 1).val
    omega

/-! ## The output array after the region -/

/-- An index of the output array is in point `t`'s block iff each coordinate is in the block's range on its axis. -/
theorem mem_blk (t : Fin cfg0.N) (i : S8x32x1.Idx) :
    i ∈ ((cfg0.win 1).blk t).view.set
      ↔ ∀ a : Fin 3, win0_1.index t a * S1x32x1.size a ≤ (i a).val
          ∧ (i a).val < win0_1.index t a * S1x32x1.size a + S1x32x1.size a := by
  show i ∈ ((View.whole main_v0).slice (win0_1.rect t)).set ↔ _
  rw [View.set_slice_whole, Rect.mem_set_unit]
  exact Iff.rfl

/-- Every index of the output array lies in the block written back at its batch's last point. -/
theorem cover (i : S8x32x1.Idx) :
    ∃ t : Fin cfg0.N, (cfg0.win 1).flush t = true ∧ i ∈ ((cfg0.win 1).blk t).view.set := by
  have hi0 : (i 0).val < 8 := (i 0).isLt
  have hi1 : (i 1).val < 32 := (i 1).isLt
  have hi2 : (i 2).val < 1 := (i 2).isLt
  refine ⟨⟨4 * (i 0).val + 3, lt_of_lt_of_eq (by omega) (show 32 = cfg0.N from N_0.symm)⟩, ?_, ?_⟩
  · exact (flush0_1 _).mpr (by show (4 * (i 0).val + 3) % 4 = 3; omega)
  · obtain ⟨-, -, -, -, -, e5, e6, e7⟩ := idx_facts ⟨4 * (i 0).val + 3, lt_of_lt_of_eq (by omega) (show 32 = cfg0.N from N_0.symm)⟩
    rw [mem_blk]
    intro a
    match a with
    | ⟨0, _⟩ =>
      show win0_1.index _ (0 : Fin 3) * 1 ≤ (i 0).val ∧ (i 0).val < win0_1.index _ (0 : Fin 3) * 1 + 1
      have e5' : win0_1.index ⟨4 * (i 0).val + 3, lt_of_lt_of_eq (by omega) (show 32 = cfg0.N from N_0.symm)⟩ (0 : Fin 3)
          = (4 * (i 0).val + 3) / 4 := e5
      omega
    | ⟨1, _⟩ =>
      show win0_1.index _ (1 : Fin 3) * 32 ≤ (i 1).val ∧ (i 1).val < win0_1.index _ (1 : Fin 3) * 32 + 32
      omega
    | ⟨2, _⟩ =>
      show win0_1.index _ (2 : Fin 3) * 1 ≤ (i 2).val ∧ (i 2).val < win0_1.index _ (2 : Fin 3) * 1 + 1
      omega

/-- After the first region its output array holds the means of the argument as launched. -/
theorem means_final (c : Dev nD) :
    (dat0 (F := Ideal) (VA m) c).arrAt 1 cfg0.N = means (m ((c.tc : Thread nD τ).loc main_arg0)) :=
  (dat0 (F := Ideal) (VA m) c).arrAt_eq_of_cover 1 _ (fun t hf => flushed_means m c t hf) cover

end Cert.KernelIdeal.Val

end
-- ==== Proof.Result.lean ====
/-
  What the second pallas_call leaves in its output array, at the ideal instance: every entry of the argument times
  the mean at its batch and depth, which is the specification function of the argument as launched.

  The grid has 64 points; point t handles batch t / 8 and the four channels 4 (t % 8) … 4 (t % 8) + 3. Its tile is the
  argument's block there, its vector is the means' block of batch t / 8, and it writes back the tile times the vector
  at each entry's depth: at (0, c', d, h, w) of the block that is the argument at (t / 8, 4 (t % 8) + c', d, h, w) times
  the mean at (t / 8, d), the specification function at that index. An index (b, c, d, h, w) of the array lies in the
  block of the point 8 b + c / 4, so the 64 blocks cover the array and it ends holding the specification function.
-/
import proofs.«161274_j15135464751187_1_alg».proof.Proof.Means
import proofs.«161274_j15135464751187_1_alg».proof.Proof.Spec
import proofs.«161274_j15135464751187_1_alg».proof.Proof.Payloads
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Where the three windows' blocks sit at point `t`: the tile's and the output's block at batch `t / 8` and
    four-channel tile `t % 8`, the means' block at batch `t / 8`; every other block index is zero. -/
theorem block_indices : ∀ t : Fin cfg1.N,
    win1_0.index t (0 : Fin 5) = t.val / 8 ∧ win1_0.index t (1 : Fin 5) = t.val % 8 ∧ win1_0.index t (2 : Fin 5) = 0
      ∧ win1_0.index t (3 : Fin 5) = 0 ∧ win1_0.index t (4 : Fin 5) = 0
    ∧ win1_1.index t (0 : Fin 3) = t.val / 8 ∧ win1_1.index t (1 : Fin 3) = 0 ∧ win1_1.index t (2 : Fin 3) = 0
    ∧ win1_2.index t (0 : Fin 5) = t.val / 8 ∧ win1_2.index t (1 : Fin 5) = t.val % 8 ∧ win1_2.index t (2 : Fin 5) = 0
      ∧ win1_2.index t (3 : Fin 5) = 0 ∧ win1_2.index t (4 : Fin 5) = 0 :=
  (by decide +kernel : ∀ t : Fin grid1.N, _)

/-- The tile at point `t` holds the argument's four channels `4 (t % 8) … 4 (t % 8) + 3` at batch `t / 8`. -/
theorem tile_read (c : Dev nD) (t : Fin cfg1.N) (y : S1x4x32x128x128.Idx) (i : S8x32x32x128x128.Idx)
    (h0 : (i 0).val = t.val / 8) (h1 : (i 1).val = 4 * (t.val % 8) + (y 1).val) (h2 : (i 2).val = (y 2).val)
    (h3 : (i 3).val = (y 3).val) (h4 : (i 4).val = (y 4).val) :
    (blk1 (F := Ideal) (VB m) c 0 t : Vec Ideal S1x4x32x128x128 .f32) y
      = (m ((c.tc : Thread nD τ).loc main_arg0) : S8x32x32x128x128.Idx → EReal) i := by
  obtain ⟨e0, e1, e2, e3, e4, -⟩ := block_indices t
  have hy0 : (y 0).val < 1 := (y 0).isLt
  unfold blk1
  rw [View.read_apply]
  show VB m c main_arg0 _ = _
  rw [VB_main_arg0]
  show (m ((c.tc : Thread nD τ).loc main_arg0) : S8x32x32x128x128.Idx → EReal) _ = _
  congr 1
  funext a
  apply Fin.ext
  match a with
  | ⟨0, _⟩ => show win1_0.index t (0 : Fin 5) * 1 + 1 * (y 0).val = (i 0).val; rw [e0, h0]; omega
  | ⟨1, _⟩ => show win1_0.index t (1 : Fin 5) * 4 + 1 * (y 1).val = (i 1).val; rw [e1, h1]; omega
  | ⟨2, _⟩ => show win1_0.index t (2 : Fin 5) * 32 + 1 * (y 2).val = (i 2).val; rw [e2, h2]; omega
  | ⟨3, _⟩ => show win1_0.index t (3 : Fin 5) * 128 + 1 * (y 3).val = (i 3).val; rw [e3, h3]; omega
  | ⟨4, _⟩ => show win1_0.index t (4 : Fin 5) * 128 + 1 * (y 4).val = (i 4).val; rw [e4, h4]; omega

/-- The means' block at point `t` holds the means of batch `t / 8`. -/
theorem means_read (c : Dev nD) (t : Fin cfg1.N) (y : S1x32x1.Idx) (j : S8x32x1.Idx)
    (h0 : (j 0).val = t.val / 8) (h1 : (j 1).val = (y 1).val) (h2 : (j 2).val = (y 2).val) :
    (blk1 (F := Ideal) (VB m) c 1 t : Vec Ideal S1x32x1 .f32) y
      = means (m ((c.tc : Thread nD τ).loc main_arg0)) j := by
  obtain ⟨-, -, -, -, -, e0, e1, e2, -⟩ := block_indices t
  have hy0 : (y 0).val < 1 := (y 0).isLt
  unfold blk1
  rw [View.read_apply]
  show VB m c main_v0 _ = _
  rw [VB_main_v0, means_final]
  show means (m ((c.tc : Thread nD τ).loc main_arg0)) _ = _
  congr 1
  funext a
  apply Fin.ext
  match a with
  | ⟨0, _⟩ => show win1_1.index t (0 : Fin 3) * 1 + 1 * (y 0).val = (j 0).val; rw [e0, h0]; omega
  | ⟨1, _⟩ => show win1_1.index t (1 : Fin 3) * 32 + 1 * (y 1).val = (j 1).val; rw [e1, h1]; omega
  | ⟨2, _⟩ => show win1_1.index t (2 : Fin 3) * 1 + 1 * (y 2).val = (j 2).val; rw [e2, h2]; omega

/-- One entry of the product: when the tile's entry is the argument at `i` and the vector's entry at the tile entry's
    depth is the mean at `i`'s batch and depth, the product is the specification function at `i`. -/
theorem point_value (x : Cert.Spec.X.Idx → EReal) (v0 : Vec Ideal S1x32x1 .f32) (v3 : Vec Ideal S1x4x32x128x128 .f32)
    (y : S1x4x32x128x128.Idx) (i : S8x32x32x128x128.Idx) (hv3 : v3 y = x i)
    (hv0 : v0 (ix3 (0 : Fin 1) (⟨(y 2).val, (y 2).isLt⟩ : Fin 32) (0 : Fin 1))
      = Cert.Spec.total x ⟨(i 0).val, (i 0).isLt⟩ ⟨(i 2).val, (i 2).isLt⟩ * Cert.Spec.invN) :
    k1_pay1 (F := Ideal) v0 v3 y = Cert.Spec.G x i := by
  obtain ⟨u, c', d, h, w, rfl⟩ : ∃ (u : Fin 1) (c' : Fin 4) (d : Fin 32) (h w : Fin 128), y = ix5 u c' d h w :=
    ⟨y 0, y 1, y 2, y 3, y 4, eq_ix5 y⟩
  obtain rfl : u = 0 := Subsingleton.elim _ _
  rw [Pay.mul_apply, hv3]
  exact congrArg (x i * ·) hv0

/-- What point `t` writes back is its block of the specification function of the argument as launched. -/
theorem flushed_eq (c : Dev nD) (t : Fin cfg1.N) :
    (dat1 (F := Ideal) (VB m) c).flushed 2 t
      = ((cfg1.win 2).blk t).view.read (Elt Ideal) (Cert.Spec.G (m ((c.tc : Thread nD τ).loc main_arg0))) := by
  show (cfg1.win 2).cut (grid1.coords t) ((dat1 (F := Ideal) (VB m) c).after 2 t) = _
  rw [after1_2]
  obtain ⟨-, -, -, -, -, -, -, -, e0, e1, e2, e3, e4⟩ := block_indices t
  funext y
  have hy0 : (y 0).val < 1 := (y 0).isLt
  have hN : t.val < 64 := lt_of_lt_of_eq t.isLt (show cfg1.N = 64 from N_1)
  show k1_pay1 (F := Ideal) (blk1 (VB m) c 1 t) (blk1 (VB m) c 0 t) y
    = Cert.Spec.G (m ((c.tc : Thread nD τ).loc main_arg0)) (((cfg1.win 2).blk t).view.emb y)
  have i0 : ((((cfg1.win 2).blk t).view.emb y) 0).val = t.val / 8 := by
    show win1_2.index t (0 : Fin 5) * 1 + 1 * (y 0).val = _; rw [e0]; omega
  have i1 : ((((cfg1.win 2).blk t).view.emb y) 1).val = 4 * (t.val % 8) + (y 1).val := by
    show win1_2.index t (1 : Fin 5) * 4 + 1 * (y 1).val = _; rw [e1]; omega
  have i2 : ((((cfg1.win 2).blk t).view.emb y) 2).val = (y 2).val := by
    show win1_2.index t (2 : Fin 5) * 32 + 1 * (y 2).val = _; rw [e2]; omega
  have i3 : ((((cfg1.win 2).blk t).view.emb y) 3).val = (y 3).val := by
    show win1_2.index t (3 : Fin 5) * 128 + 1 * (y 3).val = _; rw [e3]; omega
  have i4 : ((((cfg1.win 2).blk t).view.emb y) 4).val = (y 4).val := by
    show win1_2.index t (4 : Fin 5) * 128 + 1 * (y 4).val = _; rw [e4]; omega
  refine point_value _ _ _ y _ (tile_read m c t y _ i0 i1 i2 i3 i4) ?_
  refine (means_read m c t _ (ix3 (⟨t.val / 8, by omega⟩ : Fin 8)
    (⟨(y 2).val, (y 2).isLt⟩ : Fin 32) (0 : Fin 1)) rfl rfl rfl).trans ?_
  show Cert.Spec.total _ _ _ * Cert.Spec.invN = Cert.Spec.total _ _ _ * Cert.Spec.invN
  congr 2
  · exact Fin.ext i0.symm
  · exact Fin.ext i2.symm

/-- An index of the array is in point `t`'s output block iff each coordinate is in the block's range on its axis. -/
theorem mem_out_blk (t : Fin cfg1.N) (i : S8x32x32x128x128.Idx) :
    i ∈ ((cfg1.win 2).blk t).view.set
      ↔ ∀ a : Fin 5, win1_2.index t a * S1x4x32x128x128.size a ≤ (i a).val
          ∧ (i a).val < win1_2.index t a * S1x4x32x128x128.size a + S1x4x32x128x128.size a := by
  show i ∈ ((View.whole main_v1).slice (win1_2.rect t)).set ↔ _
  rw [View.set_slice_whole, Rect.mem_set_unit]
  exact Iff.rfl

/-- Every index lies in the output block of the point of its batch and four-channel tile, `8 b + c / 4`. -/
theorem out_cover (i : S8x32x32x128x128.Idx) :
    ∃ t : Fin cfg1.N, (cfg1.win 2).flush t = true ∧ i ∈ ((cfg1.win 2).blk t).view.set := by
  have hi0 : (i 0).val < 8 := (i 0).isLt
  have hi1 : (i 1).val < 32 := (i 1).isLt
  have hi2 : (i 2).val < 32 := (i 2).isLt
  have hi3 : (i 3).val < 128 := (i 3).isLt
  have hi4 : (i 4).val < 128 := (i 4).isLt
  have hN : cfg1.N = 64 := N_1
  obtain ⟨t, ht⟩ : ∃ t : Fin cfg1.N, t.val = 8 * (i 0).val + (i 1).val / 4 :=
    ⟨⟨8 * (i 0).val + (i 1).val / 4, by rw [hN]; omega⟩, rfl⟩
  obtain ⟨-, -, -, -, -, -, -, -, e0, e1, e2, e3, e4⟩ := block_indices t
  refine ⟨t, flush1_2 t, ?_⟩
  rw [mem_out_blk]
  intro a
  match a with
  | ⟨0, _⟩ =>
    show win1_2.index t (0 : Fin 5) * 1 ≤ (i 0).val ∧ (i 0).val < win1_2.index t (0 : Fin 5) * 1 + 1
    rw [e0, ht]; omega
  | ⟨1, _⟩ =>
    show win1_2.index t (1 : Fin 5) * 4 ≤ (i 1).val ∧ (i 1).val < win1_2.index t (1 : Fin 5) * 4 + 4
    rw [e1, ht]; omega
  | ⟨2, _⟩ =>
    show win1_2.index t (2 : Fin 5) * 32 ≤ (i 2).val ∧ (i 2).val < win1_2.index t (2 : Fin 5) * 32 + 32
    rw [e2]; omega
  | ⟨3, _⟩ =>
    show win1_2.index t (3 : Fin 5) * 128 ≤ (i 3).val ∧ (i 3).val < win1_2.index t (3 : Fin 5) * 128 + 128
    rw [e3]; omega
  | ⟨4, _⟩ =>
    show win1_2.index t (4 : Fin 5) * 128 ≤ (i 4).val ∧ (i 4).val < win1_2.index t (4 : Fin 5) * 128 + 128
    rw [e4]; omega

/-- After the second region the result array holds the specification function of the argument as launched. -/
theorem result_final (c : Dev nD) :
    (dat1 (F := Ideal) (VB m) c).arrAt 2 cfg1.N = Cert.Spec.G (m ((c.tc : Thread nD τ).loc main_arg0)) :=
  (dat1 (F := Ideal) (VB m) c).arrAt_eq_of_cover 2 (Cert.Spec.G (m ((c.tc : Thread nD τ).loc main_arg0)))
    (fun t _ => flushed_eq m c t) out_cover

end Cert.KernelIdeal.Val

end
-- ==== Proof.RefValue.lean ====
/-
  The reference program read at the extended reals. At an index (b, c, d, h, w) of the [8, 32, 32, 128, 128] argument
  the reference multiplies the entry by a quotient: the sum, started from the zero word, of every entry whose batch is b
  and depth is d, divided by the word 2^19. The two broadcasts only carry (b, d) along. The indices that lose their
  channel, row and column coordinates to (b, d) are exactly the images of the triples (c, h, w) under
  (c, h, w) ↦ (b, c, d, h, w), an injection, so the sum over them is the triple sum over channel, row and column; zero
  added in front changes nothing; and the quotient by 2^19 is the product with 2^-19. That is the specification function.
-/
import proofs.«161274_j15135464751187_1_alg».proof.Proof.Gen.ReferenceIdeal.Read
import proofs.«161274_j15135464751187_1_alg».proof.Proof.Spec
import Idealize.ShloMosaic.Lib.ValueIdx
import Idealize.ShloMosaic.Lib.IdealHost
import Idealize.ShloMosaic.PureOps.Ideal.Laws
import Idealize.ShloMosaic.Lib.Pipeline.Value

noncomputable section

open scoped BigOperators

namespace Cert.RefValue

open Idealize.ShloMosaic Idealize.ShloMosaic.ValueIdx Cert.ReferenceIdeal

/-- Dropping the channel, row and column coordinates of an index leaves its batch and depth. -/
theorem drop_iff (h' : S8x32x32x128x128.ReducesTo [1, 3, 4] S8x32) (i : S8x32x32x128x128.Idx) (b : Fin 8) (d : Fin 32) :
    h'.drop i = ix2 b d ↔ (i 0).val = b.val ∧ (i 2).val = d.val := by
  have h0 : (h'.drop i 0 : Nat) = i 0 := Shape.ReducesTo.drop_apply_val_of_eq h' i 0 0
  have h1 : (h'.drop i 1 : Nat) = i 2 := Shape.ReducesTo.drop_apply_val_of_eq h' i 1 2
  constructor
  · intro e
    rw [e] at h0 h1
    exact ⟨h0.symm, h1.symm⟩
  · rintro ⟨e0, e1⟩
    funext a
    match a with
    | ⟨0, _⟩ => exact Fin.ext (h0.trans e0)
    | ⟨1, _⟩ => exact Fin.ext (h1.trans e1)

/-- An index whose batch is `b` and depth is `d` is rebuilt from its other three coordinates. -/
theorem rebuild (i : S8x32x32x128x128.Idx) (b : Fin 8) (d : Fin 32) (e0 : (i 0).val = b.val) (e2 : (i 2).val = d.val) :
    ix5 b (⟨(i 1).val, (i 1).isLt⟩ : Fin 32) d (⟨(i 3).val, (i 3).isLt⟩ : Fin 128) (⟨(i 4).val, (i 4).isLt⟩ : Fin 128) = i := by
  funext a
  match a with
  | ⟨0, _⟩ => exact Fin.ext e0.symm
  | ⟨1, _⟩ => rfl
  | ⟨2, _⟩ => exact Fin.ext e2.symm
  | ⟨3, _⟩ => rfl
  | ⟨4, _⟩ => rfl

/-- The sum over the indices that drop to (b, d) is the triple sum over channel, row and column. -/
theorem sum_drop (h' : S8x32x32x128x128.ReducesTo [1, 3, 4] S8x32) (x : Cert.Spec.X.Idx → EReal) (b : Fin 8) (d : Fin 32) :
    ∑ i ∈ Finset.univ.filter (fun i : S8x32x32x128x128.Idx => h'.drop i = ix2 b d), x i = Cert.Spec.total x b d := by
  classical
  have ht : Cert.Spec.total x b d = ∑ p : Fin 32 × Fin 128 × Fin 128, x (ix5 b p.1 d p.2.1 p.2.2) := by
    unfold Cert.Spec.total
    rw [Fintype.sum_prod_type]
    refine Finset.sum_congr rfl (fun c _ => ?_)
    rw [Fintype.sum_prod_type]
  rw [ht]
  refine Finset.sum_bij'
    (fun i _ => ((⟨(i 1).val, (i 1).isLt⟩ : Fin 32), (⟨(i 3).val, (i 3).isLt⟩ : Fin 128), (⟨(i 4).val, (i 4).isLt⟩ : Fin 128)))
    (fun p _ => ix5 b p.1 d p.2.1 p.2.2) (fun _ _ => Finset.mem_univ _)
    (fun p _ => Finset.mem_filter.2 ⟨Finset.mem_univ _, (drop_iff h' _ b d).2 ⟨rfl, rfl⟩⟩)
    (fun i hi => ?_) (fun _ _ => rfl) (fun i hi => ?_)
  · obtain ⟨e0, e2⟩ := (drop_iff h' i b d).1 (Finset.mem_filter.1 hi).2
    exact rebuild i b d e0 e2
  · obtain ⟨e0, e2⟩ := (drop_iff h' i b d).1 (Finset.mem_filter.1 hi).2
    exact congrArg x (rebuild i b d e0 e2).symm

/-- The reference's sum over channel, row and column, from the zero word, at batch `b` and depth `d`. -/
theorem v0_eq (x : (⟨S8x32x32x128x128, .f32⟩ : BufTy).Contents (Elt Ideal)) (b : Fin 8) (d : Fin 32) :
    Read.val_main_v0 (F := Ideal) x (ix2 b d) = Cert.Spec.total x b d := by
  unfold Read.val_main_v0
  rw [hostReduceAdd_apply]
  unfold Ideal.hostReduceAdd
  rw [sum_drop, Read.val_main_cst_apply, Ideal.ofBits_def, Ideal.ofBits_zero_f32, zero_add]

/-- The two broadcasts read the quotient at the entry's batch and depth. -/
theorem idx_bd (i : S8x32x32x128x128.Idx) :
    Read.idx_main_v3 (Read.idx_main_v4 i)
      = ix2 (⟨(i 0).val, (i 0).isLt⟩ : Fin 8) (⟨(i 2).val, (i 2).isLt⟩ : Fin 32) := by
  funext a
  match a with
  | ⟨0, _⟩ => rfl
  | ⟨1, _⟩ => rfl

/-- The reference's result is every entry times the mean at its batch and depth. -/
theorem ref_is_G (x : (⟨Cert.ReferenceIdeal.S8x32x32x128x128, .f32⟩ : BufTy).Contents (Elt Ideal)) :
    Cert.ReferenceIdeal.Read.val_main_v5 (F := Ideal) x = Cert.Spec.G x := by
  funext i
  rw [Read.val_main_v5_apply, Read.val_main_v4_apply, Read.val_main_v3_apply, Read.val_main_v2_apply,
    Read.val_main_v1_apply, Read.val_main_cst_0_apply, idx_bd, v0_eq, Ideal.mulf_def, Ideal.hostDivf_def,
    Ideal.ofBits_def, Cert.Spec.ofBits_N, Cert.Spec.div_N]
  rfl

end Cert.RefValue

end
-- ==== Proof.lean ====
/-
  The certificate: the kernel (two pallas_calls: a mean over channel, row and column kept in a running vector
  across four channel tiles, then a broadcast product) against `x * mean(x, axis=(1, 3, 4))[:, None, :, None, None]`.

  Frames. Each kernel program is two kernel regions in a row. The first carries its running vector in scratch from
  point to point, so its invariant names the scratch's contents after every point; the second carries nothing. The
  run composes the two regions and ends with every unscoped buffer at named contents, from which the argument is
  read back unchanged. The reference is a straight line of host operations.

  Values, over the extended reals. The kernel's result at (b, c, d, h, w) is x(b, c, d, h, w) times the running
  vector at the last tile, ((((0 + T0) + T1) + T2) + T3) · 2^-19, where Tk sums tile k's eight channels over row and
  column; the reference's is x(b, c, d, h, w) times (0 + T) / 2^19 with T the sum over all 32 channels. Addition of
  extended reals is commutative and associative, so the four tiles make T whatever the entries; 2^-19 is an exact
  power of two and the quotient by 2^19 is the product with it on every extended real. The precondition is not
  needed. No operation was rewritten by the idealization, so `preserves` is trivial.
-/
import proofs.«161274_j15135464751187_1_alg».proof.Defs
import proofs.«161274_j15135464751187_1_alg».proof.Proof.Gen.Kernel
import proofs.«161274_j15135464751187_1_alg».proof.Proof.Gen.KernelIdeal
import proofs.«161274_j15135464751187_1_alg».proof.Proof.Gen.ReferenceIdeal
import proofs.«161274_j15135464751187_1_alg».proof.Proof.Gen.Pre_finite_inputs
import proofs.«161274_j15135464751187_1_alg».proof.Proof.Gen.ReferenceIdeal.Run
import proofs.«161274_j15135464751187_1_alg».proof.Proof.Gen.ReferenceIdeal.Read
import proofs.«161274_j15135464751187_1_alg».proof.Proof.Kernel.Run
import proofs.«161274_j15135464751187_1_alg».proof.Proof.KernelIdeal.Run
import proofs.«161274_j15135464751187_1_alg».proof.Proof.Result
import proofs.«161274_j15135464751187_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specification function of the argument: the kernel's second region's
    output array is it, and the reference's composed term is it. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Val.result_final m c), (h c).2⟩)
      (Cert.KernelIdeal.Hand.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.RefValue.ref_is_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
